-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x1024 : Shape := ⟨2, ![1024, 1024]⟩
abbrev S1024x256 : Shape := ⟨2, ![1024, 256]⟩
abbrev S_ : Shape := ⟨0, ![]⟩

class Facts : Prop where
  bcast_S_S1024x1024 : S_.BroadcastsInDim S1024x1024 (![] : Fin 0 → Fin S1024x1024.rank)
  reducesTo_S1024x1024_S_d0_1 : S1024x1024.ReducesTo [0, 1] S_
  h_S_ : 0 < S_.numel
  bcast_S_S1024x256 : S_.BroadcastsInDim S1024x256 (![] : Fin 0 → Fin S1024x256.rank)
  reducesTo_S1024x256_S_d0_1 : S1024x256.ReducesTo [0, 1] S_

variable [Facts]

def fn {F : FTy → Type} [FloatOps F] (main_arg0 : FVec F S1024x1024 .f32) (main_arg1 : FVec F S1024x256 .f32) : IVec S_ 1 :=
  let main_v0 : FVec F S1024x1024 .f32 := Host.absf main_arg0
  let main_cst : FVec F S_ .f32 := constant S_ .f32 0x7F800000#32
  let main_v1 : FVec F S1024x1024 .f32 := broadcastInDim S1024x1024 ![] bcast_S_S1024x1024 main_cst
  let main_v2 : IVec S1024x1024 1 := cmpf .olt main_v0 main_v1
  let main_c : IVec S_ 1 := constantI S_ 1 1#1
  let main_v3 : IVec S_ 1 := (fun x v => Host.reduce IntOp.andi x v reducesTo_S1024x1024_S_d0_1 h_S_) main_v2 main_c
  let main_v4 : FVec F S1024x256 .f32 := Host.absf main_arg1
  let main_cst_0 : FVec F S_ .f32 := constant S_ .f32 0x7F800000#32
  let main_v5 : FVec F S1024x256 .f32 := broadcastInDim S1024x256 ![] bcast_S_S1024x256 main_cst_0
  let main_v6 : IVec S1024x256 1 := cmpf .olt main_v4 main_v5
  let main_c_1 : IVec S_ 1 := constantI S_ 1 1#1
  let main_v7 : IVec S_ 1 := (fun x v => Host.reduce IntOp.andi x v reducesTo_S1024x256_S_d0_1 h_S_) main_v6 main_c_1
  let main_v8 : IVec S_ 1 := andi main_v3 main_v7
  main_v8
-- ==== Kernel.lean ====
abbrev S1024x1024 : Shape := ⟨2, ![1024, 1024]⟩
abbrev S1024x256 : Shape := ⟨2, ![1024, 256]⟩
abbrev S_ : Shape := ⟨0, ![]⟩
abbrev S1024 : Shape := ⟨1, ![1024]⟩
abbrev S1x1024 : Shape := ⟨2, ![1, 1024]⟩
abbrev S128x256 : Shape := ⟨2, ![128, 256]⟩
abbrev S128x1024 : Shape := ⟨2, ![128, 1024]⟩
abbrev S128 : Shape := ⟨1, ![128]⟩
abbrev S128x1 : Shape := ⟨2, ![128, 1]⟩

abbrev nBuf : Space → Nat
  | .hbm => 7
  | .vmem => 8
  | .smem => 0
  | _ => 0

abbrev bufTy : (tb : Table) → Fin (tcTables nBuf tb) → BufTy
  | .hbm, ⟨0, _⟩ => ⟨S1024x1024, .f32⟩
  | .hbm, ⟨1, _⟩ => ⟨S1024x256, .f32⟩
  | .hbm, ⟨2, _⟩ => ⟨S1024x256, .f32⟩
  | .hbm, ⟨3, _⟩ => ⟨S_, .f32⟩
  | .hbm, ⟨4, _⟩ => ⟨S1024, .f32⟩
  | .hbm, ⟨5, _⟩ => ⟨S1x1024, .f32⟩
  | .hbm, ⟨6, _⟩ => ⟨S1024x1024, .f32⟩
  | .local _ .vmem, ⟨0, _⟩ => ⟨S128x256, .f32⟩
  | .local _ .vmem, ⟨1, _⟩ => ⟨S128x256, .f32⟩
  | .local _ .vmem, ⟨2, _⟩ => ⟨S1024x256, .f32⟩
  | .local _ .vmem, ⟨3, _⟩ => ⟨S1x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  reducesTo_S1024x256_S1024_d1 : S1024x256.ReducesTo [1] S1024
  h_S_ : 0 < S_.numel
  shapeCasts_S1024_S1x1024 : S1024.ShapeCasts S1x1024
  inb_S128x256_S128x256_0_0 : ∀ a, (![0, 0] : Fin 2 → Nat) a + S128x256.size a ≤ S128x256.size a
  h_S128x256 : 0 < S128x256.numel
  inb_S1024x256_S1024x256_0_0 : ∀ a, (![0, 0] : Fin 2 → Nat) a + S1024x256.size a ≤ S1024x256.size a
  h_S1024x256 : 0 < S1024x256.numel
  reduces_S128x256_S128 : S128x256.Reduces [1] S128
  shapeCasts_S128_S128x1 : S128.ShapeCasts S128x1
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S128x1_S128x1024 : S128x1.Broadcasts S128x1024
  broadcasts_S1x1024_S128x1024 : S1x1024.Broadcasts S128x1024
  iota_S128x1024_d0_w32 : S128x1024.Iotas .tc 32 [0]
  iota_S128x1024_d1_w32 : S128x1024.Iotas .tc 32 [1]
  natLt_1_32 : 1 < 32
  inb_S128x1024_S128x1024_0_0 : ∀ a, (![0, 0] : Fin 2 → Nat) a + S128x1024.size a ≤ S128x1024.size a
  h_S128x1024 : 0 < S128x1024.numel
  dot_S128x256_S1024x256_S128x1024_1_1_0_0_n_n_wf : DotDims.WF S128x256 S1024x256 S128x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x256.size a ≤ S1024x256.size a
  hwx0_0 : ∀ i : grid0.Coords, EltTy.bits .f32 = 32 ∨ (Rect.block (s := S1024x256) S128x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S1024x256.size a
  hwx0_1 : ∀ i : grid0.Coords, EltTy.bits .f32 = 32 ∨ (Rect.block (s := S1024x256) S1024x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x1024.size a ≤ S1024x1024.size a
  hwx0_3 : ∀ i : grid0.Coords, EltTy.bits .f32 = 32 ∨ (Rect.block (s := S1024x1024) S128x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S128x1024.size a ≤ S1024x1024.size a
  hwx0_4 : ∀ i : grid0.Coords, EltTy.bits .f32 = 32 ∨ (Rect.block (s := S1024x1024) S128x1024.size (cc0_transform_4 i) (hinb0_4 i)).WholeWords (EltTy.packing .f32)

variable [Facts₀]

def dot_S128x256_S1024x256_S128x1024_1_1_0_0_n_n : DotDims S128x256 S1024x256 S128x1024 where
  lhsContracting := [1]
  rhsContracting := [1]
  lhsNonContracting := [0]
  rhsNonContracting := [0]
  lhsBatch := []
  rhsBatch := []
  wf := dot_S128x256_S1024x256_S128x1024_1_1_0_0_n_n_wf

abbrev win0_0 : Pipeline.Window sig grid0 :=
  Pipeline.Window.ofSpec (Memref.whole main_arg1) S128x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg0) S128x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3) S128x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S1024x1024 : Shape := ⟨2, ![1024, 1024]⟩
abbrev S1024x256 : Shape := ⟨2, ![1024, 256]⟩
abbrev S1x1024x256 : Shape := ⟨3, ![1, 1024, 256]⟩
abbrev S1024x1x256 : Shape := ⟨3, ![1024, 1, 256]⟩
abbrev S1024x1024x256 : Shape := ⟨3, ![1024, 1024, 256]⟩
abbrev S_ : Shape := ⟨0, ![]⟩

abbrev nBuf : Space → Nat
  | .hbm => 34
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1024x256, .f32⟩
  | .hbm, ⟨2, _⟩ => ⟨S1x1024x256, .f32⟩
  | .hbm, ⟨3, _⟩ => ⟨S1024x1x256, .f32⟩
  | .hbm, ⟨4, _⟩ => ⟨S1024x1024x256, .f32⟩
  | .hbm, ⟨5, _⟩ => ⟨S1024x1024x256, .f32⟩
  | .hbm, ⟨6, _⟩ => ⟨S1024x1024x256, .f32⟩
  | .hbm, ⟨7, _⟩ => ⟨S1024x1024x256, .f32⟩
  | .hbm, ⟨8, _⟩ => ⟨S_, .f32⟩
  | .hbm, ⟨9, _⟩ => ⟨S1024x1024, .f32⟩
  | .hbm, ⟨10, _⟩ => ⟨S_, .f32⟩
  | .hbm, ⟨11, _⟩ => ⟨S1024x1024, .f32⟩
  | .hbm, ⟨12, _⟩ => ⟨S1024x1024, .i1⟩
  | .hbm, ⟨13, _⟩ => ⟨S1024x1024, .f32⟩
  | .hbm, ⟨14, _⟩ => ⟨S_, .f32⟩
  | .hbm, ⟨15, _⟩ => ⟨S1024x1024, .f32⟩
  | .hbm, ⟨16, _⟩ => ⟨S1024x1024, .f32⟩
  | .hbm, ⟨17, _⟩ => ⟨S1024x1024, .f32⟩
  | .hbm, ⟨18, _⟩ => ⟨S1024x1024, .f32⟩
  | .hbm, ⟨19, _⟩ => ⟨S_, .f32⟩
  | .hbm, ⟨20, _⟩ => ⟨S1024x1024, .f32⟩
  | .hbm, ⟨21, _⟩ => ⟨S1024x1024, .f32⟩
  | .hbm, ⟨22, _⟩ => ⟨S1024x1024, .f32⟩
  | .hbm, ⟨23, _⟩ => ⟨S1024x1024, .f32⟩
  | .hbm, ⟨24, _⟩ => ⟨S1024x1024, .f32⟩
  | .hbm, ⟨25, _⟩ => ⟨S1024x1024, .i32⟩
  | .hbm, ⟨26, _⟩ => ⟨S_, .i32⟩
  | .hbm, ⟨27, _⟩ => ⟨S1024x1024, .i32⟩
  | .hbm, ⟨28, _⟩ => ⟨S1024x1024, .i32⟩
  | .hbm, ⟨29, _⟩ => ⟨S1024x1024, .i32⟩
  | .hbm, ⟨30, _⟩ => ⟨S1024x1024, .i1⟩
  | .hbm, ⟨31, _⟩ => ⟨S_, .f32⟩
  | .hbm, ⟨32, _⟩ => ⟨S1024x1024, .f32⟩
  | .hbm, ⟨33, _⟩ => ⟨S1024x1024, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_call0_v0 : Ref sig .tc := ⟨.hbm, 25, rfl⟩
abbrev main_call0_c : Ref sig .tc := ⟨.hbm, 26, rfl⟩
abbrev main_call0_v1 : Ref sig .tc := ⟨.hbm, 27, rfl⟩
abbrev main_call0_v2 : Ref sig .tc := ⟨.hbm, 28, rfl⟩
abbrev main_call0_v3 : Ref sig .tc := ⟨.hbm, 29, rfl⟩
abbrev main_call0_v4 : Ref sig .tc := ⟨.hbm, 30, rfl⟩
abbrev main_call0_cst : Ref sig .tc := ⟨.hbm, 31, rfl⟩
abbrev main_call0_v5 : Ref sig .tc := ⟨.hbm, 32, rfl⟩
abbrev main_v19 : Ref sig .tc := ⟨.hbm, 33, rfl⟩

abbrev nD : Nat := 1
abbrev τ : Topo := Topo.v7x

variable {F : FTy → Type} [FloatOps F]

class Facts₀ : Prop where
  bcast_S1024x256_S1x1024x256_1_2 : S1024x256.BroadcastsInDim S1x1024x256 (![1, 2] : Fin 2 → Fin S1x1024x256.rank)
  bcast_S1024x256_S1024x1x256_0_2 : S1024x256.BroadcastsInDim S1024x1x256 (![0, 2] : Fin 2 → Fin S1024x1x256.rank)
  bcast_S1x1024x256_S1024x1024x256_0_1_2 : S1x1024x256.BroadcastsInDim S1024x1024x256 (![0, 1, 2] : Fin 3 → Fin S1024x1024x256.rank)
  bcast_S1024x1x256_S1024x1024x256_0_1_2 : S1024x1x256.BroadcastsInDim S1024x1024x256 (![0, 1, 2] : Fin 3 → Fin S1024x1024x256.rank)
  reducesTo_S1024x1024x256_S1024x1024_d2 : S1024x1024x256.ReducesTo [2] S1024x1024
  h_S_ : 0 < S_.numel
  bcast_S_S1024x1024 : S_.BroadcastsInDim S1024x1024 (![] : Fin 0 → Fin S1024x1024.rank)

variable [Facts₀]

class Facts : Prop extends Facts₀ where

variable [Facts]
-- ==== Proof.KernelRegion.lean ====
/-
  The run of the program's one kernel region, read at any float instance.

  @main computes the row norms  nb[j] = Σ_k y_pred[j,k]²  on the host, reshapes them to one row, and launches the kernel on a
  grid of 8 points. Point t is handed rows 128·t … 128·t+127 of y_pred (window 0), ALL of y_pred (window 1), the row of norms
  (window 2) and rows 128·t … of y_true (window 3), and writes rows 128·t … of the result (window 4).
  Windows 0 and 1 read ONE array, y_pred: it is only read, so each window holds half of it (the left and the right half of the
  full share), and the two halves are what the launch deals from the array held whole.
  What the region leaves: every window's array at the contents the pipeline's proof data compute — an input array as the
  region found it, the result array overwritten, block by block, by what the body stored at each point: the one store of
  the body, a pure function of the four input blocks and of the point.
-/
import proofs.«169944_j33036888441194_1_alg».proof.Proof.Gen.Kernel.Launch
import proofs.«169944_j33036888441194_1_alg».proof.Proof.Gen.Kernel.Skeleton
import proofs.«169944_j33036888441194_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Region

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- The core's buffers when the region is entered: the launch contents after the four host operations
    (the squares, the zero, the row sums, the reshape). -/
abbrev V (c : Dev nD) (b : Ref sig .tc) : Buf (Elt F) ((c : Thread nD τ).loc b) :=
  StableHlo.after hostOps0 (fun b => m (c, b)) b

theorem hostOps0_fresh : (hostOps0 : List (HloOp τ sig (Elt F))).Forall fun op => op.fresh = ∅ := by
  simp only [List.Forall]; repeat' constructor

/-- @main is the host operations, then the region. -/
theorem hmain (𝒱₀ : Variants) :
    Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation writes y_true: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.binary_writes,
      StableHlo.reshape_writes, Finset.mem_singleton]
    repeat' apply And.intro
    all_goals exact StableHlo.devRef_ne_of_ne (by decide)))

/-- No host operation writes y_pred: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nullary_writes, StableHlo.unary_writes, StableHlo.binary_writes,
      StableHlo.reshape_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's staging buffer holds its block at every point, fetched there or not: where it is not
    fetched its block index has not moved since the last fetch, and the body leaves the buffer as it found it.
    Stated window by window: a window's block shape is a literal only at a literal window. -/
theorem before_in0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_in2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_in3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The body's accesses, and what it stores -/

abbrev r0 : Rect S128x256 := Rect.unit (s := S128x256) ![0, 0] S128x256.size inb_S128x256_S128x256_0_0
abbrev r1 : Rect S1024x256 := Rect.unit (s := S1024x256) ![0, 0] S1024x256.size inb_S1024x256_S1024x256_0_0
abbrev r2 : Rect S1x1024 := Rect.unit (s := S1x1024) ![0, 0] S1x1024.size inb_S1x1024_S1x1024_0_0
abbrev r3 : Rect S128x1024 := Rect.unit (s := S128x1024) ![0, 0] S128x1024.size inb_S128x1024_S128x1024_0_0

/-- The result window's staging buffer after the body at grid coordinates `i`: its one store, of the body's
    arithmetic on the four loaded blocks, over the whole buffer. -/
def out4 (i : grid0.Coords) (x0 : Vec F S128x256 .f32) (x1 : Vec F S1024x256 .f32) (x2 : Vec F S1x1024 .f32) (x3 : Vec F S128x1024 .f32) :
    Vec F S128x1024 .f32 :=
  View.canon [⟨r3, k0_pay1 i (View.ld x0 r0) (View.ld x1 r1) (View.ld x2 r2) (View.ld x3 r3)⟩]

/-- The one store covers the buffer. -/
theorem cover4 (p0 : Vec F S128x1024 .f32) (y : S128x1024.Idx) :
    ∃ pc ∈ ([⟨r3, p0⟩] : List (View.Piece (Elt F) S128x1024 .f32)), y ∈ pc.1.set :=
  View.cover_of_tiled [⟨r3, p0⟩] S128x1024.size (by rfl) y

/-! ## The body's triple -/

set_option maxHeartbeats 2000000 in
/-- On whole staging buffers — the four inputs' at contents `x0 … x3`, the result's at anything — the body runs to the
    continuation holding the inputs' as they were and the result's at `out4` of them. -/
theorem sound_kernel (c : Dev nD) (E : Set ℕ) (i : grid0.Coords)
    (arg1 : Memref sig .tc .vmem S128x256 .f32) (harg1 : arg1.IsWhole) (arg2 : Memref sig .tc .vmem S1024x256 .f32) (harg2 : arg2.IsWhole)
    (arg3 : Memref sig .tc .vmem S1x1024 .f32) (harg3 : arg3.IsWhole) (arg4 : Memref sig .tc .vmem S128x1024 .f32) (harg4 : arg4.IsWhole)
    (arg5 : Memref sig .tc .vmem S128x1024 .f32) (harg5 : arg5.IsWhole)
    (x0 : Vec F S128x256 .f32) (x1 : Vec F S1024x256 .f32) (x2 : Vec F S1x1024 .f32) (x3 : Vec F S128x1024 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out4 i x0 x1 x2 x3)) -∗ K ⟨⟩))
      ⊢ wp frame (wpE (defs₀ (F := F)) Variants.none c none) E (cc0__kernel i arg1 harg1 arg2 harg2 arg3 harg3 arg4 harg4 arg5 harg5) K := by
  simp only [cc0__kernel_eq_skeleton]; unfold cc0__kernel_skel
  simp only [k0_part1_eq_skeleton]
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover4 _)

/-! ## The pipeline's proof data -/

/-- The proof data on core `c`: the arrays as the region finds them; after the body at point `t` each input's buffer at its
    block and the result's at `out4` of the four blocks; nothing carried between points but the idle scoped buffers;
    y_pred's two windows at the two halves of the full share; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => out4 (grid0.coords t) (iblk m c 0 t) (iblk m c 1 t) (iblk m c 2 t) (iblk m c 3 t)
  Φ _ := Pipeline.scopedRest (Ix := Unit) (Name := ℕ) (U := UR sig nD τ) (Lvl := ℕ) (Val := Elt F) spec0 c
  q w := match w with
    | ⟨0, _⟩ => fullShare.left
    | ⟨1, _⟩ => fullShare.right
    | ⟨2, _⟩ => fullShare
    | ⟨3, _⟩ => fullShare
    | ⟨4, _⟩ => fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t
    = out4 (grid0.coords t) (iblk m c 0 t) (iblk m c 1 t) (iblk m c 2 t) (iblk m c 3 t) := by dsimp only [dats]

theorem before0 (c : Dev nD) (t : Fin cfg0.N) (d) : (dats m 0 c).before 0 t d = iblk m c 0 t :=
  before_in0_of m (dats m 0 c) (A_eq m c 0) (after0 m c) t d
theorem before1 (c : Dev nD) (t : Fin cfg0.N) (d) : (dats m 0 c).before 1 t d = iblk m c 1 t :=
  before_in1_of m (dats m 0 c) (A_eq m c 1) (after1 m c) t d
theorem before2 (c : Dev nD) (t : Fin cfg0.N) (d) : (dats m 0 c).before 2 t d = iblk m c 2 t :=
  before_in2_of m (dats m 0 c) (A_eq m c 2) (after2 m c) t d
theorem before3 (c : Dev nD) (t : Fin cfg0.N) (d) : (dats m 0 c).before 3 t d = iblk m c 3 t :=
  before_in3_of m (dats m 0 c) (A_eq m c 3) (after3 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- The body at any point: the inputs' buffers hold their blocks, so the body's triple applies; the invariant and the
    core's debts pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).Φ t.succ = (dats m 0 c).Φ t.castSucc from rfl,
    show (dats m 0 c).owesAt () t.succ = (dats m 0 c).owesAt () t.castSucc from rfl,
    after0, after1, after2, after3, after4]
  iintro ⟨HΦ, Ho, ⟨%d0, H0⟩, ⟨%d1, H1⟩, ⟨%d2, H2⟩, ⟨%d3, H3⟩, ⟨%d4, H4⟩⟩
  iapply (sound_kernel c Set.univ (grid0.coords t) _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation (c : Dev nD) : BodyObligation (dats (F := F) m 0 c) (defs₀ (F := F)) Variants.none () Set.univ := fun t => by
  rw [bigSep_W0, bigSep_W0]
  exact sound_body m c t

/-! ## The arrays at the region's entry: y_pred dealt in two halves -/

/-- A window's array, a whole buffer, held at a share: the plain points-to of the buffer behind it. -/
theorem arr_pt (c : Dev nD) (w : Fin cfg0.W) (q : PosShare TreeShare) (X : Buf (Elt F) ((cfg0.win w).arr.view.loc (c.tc : Thread nD τ))) :
    ((cfg0.win w).arr.view.loc (c.tc : Thread nD τ) ↦[(cfg0.win w).arr.view.set]{q} X : sProp 𝕄)
      = (((c.tc : Thread nD τ).loc (Pipeline.arrRef spec0 w)) ↦{q} X) := by
  rw [(arr_whole0 w).set_eq_univ]

/-- The three buffers behind the five windows' arrays, each held whole, make the windows' arrays at their shares:
    y_pred's full share splits into the halves of windows 0 and 1. -/
theorem arrays_of_bufs (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  unfold Pipeline.arrBufs Dat.arrays
  rw [bigSep_W0]
  rw [bigSep_eq_bigSepL_of_eq [main_arg1, main_v2, main_arg0, main_v3] (by decide) (by decide)]
  simp only [bigSepL_cons_cons, bigSepL_singleton]
  rw [arr_pt c 0, arr_pt c 1, arr_pt c 2, arr_pt c 3, arr_pt c 4]
  have hs0 : (dats m 0 c).share 0 = fullShare.left := rfl
  have hs1 : (dats m 0 c).share 1 = fullShare.right := rfl
  have hs2 : (dats m 0 c).share 2 = fullShare := rfl
  have hs3 : (dats m 0 c).share 3 = fullShare := rfl
  have hs4 : (dats m 0 c).share 4 = fullShare := rfl
  rw [hs0, hs1, hs2, hs3, hs4]
  show iprop((((c.tc : Thread nD τ).loc main_arg1) ↦{fullShare} V m c main_arg1) ∗ (((c.tc : Thread nD τ).loc main_v2) ↦{fullShare} V m c main_v2)
        ∗ (((c.tc : Thread nD τ).loc main_arg0) ↦{fullShare} V m c main_arg0) ∗ (((c.tc : Thread nD τ).loc main_v3) ↦{fullShare} V m c main_v3)) ⊢ _
  iintro ⟨H1, H2, H0, H3⟩
  ihave H1' := (pointsTo_share (PosShare.mem_left_op_right fullShare)).1 $$ H1
  icases H1' with ⟨H1l, H1r⟩
  isplitl [H1l]; · iexact H1l
  isplitl [H1r]; · iexact H1r
  isplitl [H2]; · iexact H2
  isplitl [H0]; · iexact H0
  iexact H3

/-! ## The run -/

-- the launch theorem's implicit arguments are found by unifying its conclusion with this one, which takes unfolding plain
-- definitions in a metavariable's type
set_option backward.isDefEq.respectTransparency.types false in
/-- From any memory with zero counters every weakly fair execution of @main terminates, and every window's array ends at
    what the proof data compute. The arrays behind the windows are dealt by `arrays_of_bufs`; the bypassing buffers
    (the squares, the zero, the unreshaped sums) ride along untouched and nothing is claimed of them. -/
theorem run_main : θ_run defs (onTc (τ := τ) (main (F := F))) (s₀ m ρ)
    (fun r => ∀ c : Dev nD, ∀ w, r.2.mem ((spec0 w).arr.view.loc (c.tc : Thread nD τ)) = (dats m 0 c).arrAt w cfg0.N) :=
  Pipeline.θ_run_region_noSem_shared cfgs (dats m) () cellOf_inj (0 : Fin 1) winFacts₀0 emb₁ defs₀ Variants.none m ρ main
    (hbody := fun c => (body_obligation m c).loose)
    (hne := block_pos0) (harr := arr_whole0) (hstage := stage_whole0)
    (howed := fun _ _ => rfl)
    (u₀ := initOf (Pipeline.cells cfgs cellOf_inj) (Pipeline.launchToks cfgs cellOf_inj))
    (hu₀ := .rfl)
    (V := V m) (hmain := hmain m Variants.none)
    (hsplit := arrays_of_bufs m)
    (X := fun _ => iprop(emp)) (Y := fun _ => iprop(emp))
    (Z := fun c => Pipeline.unscopedRest (Ix := Unit) (Name := ℕ) (U := UR sig nD τ) (Lvl := ℕ) spec0 c (V m c))
    (hX := fun c => by
      iintro H
      isplitr; · iempintro
      iexact H)
    (hin := fun c => by
      dsimp only [dats]
      iintro ⟨-, H⟩
      iexact H)
    (hout := fun c => by
      dsimp only [dats]
      iintro H
      isplitr; · iempintro
      iexact H)
    (QY := fun _ _ => True)
    (hY := fun c s' => by
      iintro ⟨-, -, HSI⟩
      imodintro
      isplitr; · ipureintro; trivial
      iexact HSI)
    (hQ := fun s h c w => (h c).1 w)

/-- info: 'Cert.Kernel.Region.run_main' depends on axioms: [propext, Classical.choice, Quot.sound] -/
#guard_msgs in #print axioms run_main

/-- The run read at the program's arrays: the result array holds what the write-backs of the 8 points left, and the two
    argument arrays, which only input windows read, are as launched. -/
theorem run_value : θ_run defs (onTc (τ := τ) (main (F := F))) ⟨m, fun _ => 0, ρ⟩ (fun r => ∀ c : Dev nD,
      r.2.mem ((c.tc : Thread nD τ).loc main_v3) = (dats m 0 c).arrAt 4 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨h c 4,
      ((h c 3).trans ((dats m 0 c).arrAt_in 3 rfl _)).trans ((A_eq m c 3).trans (V_main_arg0 m c)),
      ((h c 0).trans ((dats m 0 c).arrAt_in 0 rfl _)).trans ((A_eq m c 0).trans (V_main_arg1 m c))⟩) (run_main m ρ)

/-- The program runs to the end, faults nowhere, and leaves its argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => (h c).2) (run_value m ρ)

end Cert.Kernel.Region

end
-- ==== Proof.KernelIdealRegion.lean ====
/-
  The run of the program's one kernel region, read at any float instance.

  @main computes the row norms  nb[j] = Σ_k y_pred[j,k]²  on the host, reshapes them to one row, and launches the kernel on a
  grid of 8 points. Point t is handed rows 128·t … 128·t+127 of y_pred (window 0), ALL of y_pred (window 1), the row of norms
  (window 2) and rows 128·t … of y_true (window 3), and writes rows 128·t … of the result (window 4).
  Windows 0 and 1 read ONE array, y_pred: it is only read, so each window holds half of it (the left and the right half of the
  full share), and the two halves are what the launch deals from the array held whole.
  What the region leaves: every window's array at the contents the pipeline's proof data compute — an input array as the
  region found it, the result array overwritten, block by block, by what the body stored at each point: the one store of
  the body, a pure function of the four input blocks and of the point.
-/
import proofs.«169944_j33036888441194_1_alg».proof.Proof.Gen.KernelIdeal.Launch
import proofs.«169944_j33036888441194_1_alg».proof.Proof.Gen.KernelIdeal.Skeleton
import proofs.«169944_j33036888441194_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Region

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- The core's buffers when the region is entered: the launch contents after the four host operations
    (the squares, the zero, the row sums, the reshape). -/
abbrev V (c : Dev nD) (b : Ref sig .tc) : Buf (Elt F) ((c : Thread nD τ).loc b) :=
  StableHlo.after hostOps0 (fun b => m (c, b)) b

theorem hostOps0_fresh : (hostOps0 : List (HloOp τ sig (Elt F))).Forall fun op => op.fresh = ∅ := by
  simp only [List.Forall]; repeat' constructor

/-- @main is the host operations, then the region. -/
theorem hmain (𝒱₀ : Variants) :
    Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation writes y_true: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.binary_writes,
      StableHlo.reshape_writes, Finset.mem_singleton]
    repeat' apply And.intro
    all_goals exact StableHlo.devRef_ne_of_ne (by decide)))

/-- No host operation writes y_pred: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nullary_writes, StableHlo.unary_writes, StableHlo.binary_writes,
      StableHlo.reshape_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's staging buffer holds its block at every point, fetched there or not: where it is not
    fetched its block index has not moved since the last fetch, and the body leaves the buffer as it found it.
    Stated window by window: a window's block shape is a literal only at a literal window. -/
theorem before_in0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_in2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_in3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The body's accesses, and what it stores -/

abbrev r0 : Rect S128x256 := Rect.unit (s := S128x256) ![0, 0] S128x256.size inb_S128x256_S128x256_0_0
abbrev r1 : Rect S1024x256 := Rect.unit (s := S1024x256) ![0, 0] S1024x256.size inb_S1024x256_S1024x256_0_0
abbrev r2 : Rect S1x1024 := Rect.unit (s := S1x1024) ![0, 0] S1x1024.size inb_S1x1024_S1x1024_0_0
abbrev r3 : Rect S128x1024 := Rect.unit (s := S128x1024) ![0, 0] S128x1024.size inb_S128x1024_S128x1024_0_0

/-- The result window's staging buffer after the body at grid coordinates `i`: its one store, of the body's
    arithmetic on the four loaded blocks, over the whole buffer. -/
def out4 (i : grid0.Coords) (x0 : Vec F S128x256 .f32) (x1 : Vec F S1024x256 .f32) (x2 : Vec F S1x1024 .f32) (x3 : Vec F S128x1024 .f32) :
    Vec F S128x1024 .f32 :=
  View.canon [⟨r3, k0_pay1 i (View.ld x0 r0) (View.ld x1 r1) (View.ld x2 r2) (View.ld x3 r3)⟩]

/-- The one store covers the buffer. -/
theorem cover4 (p0 : Vec F S128x1024 .f32) (y : S128x1024.Idx) :
    ∃ pc ∈ ([⟨r3, p0⟩] : List (View.Piece (Elt F) S128x1024 .f32)), y ∈ pc.1.set :=
  View.cover_of_tiled [⟨r3, p0⟩] S128x1024.size (by rfl) y

/-! ## The body's triple -/

set_option maxHeartbeats 2000000 in
/-- On whole staging buffers — the four inputs' at contents `x0 … x3`, the result's at anything — the body runs to the
    continuation holding the inputs' as they were and the result's at `out4` of them. -/
theorem sound_kernel (c : Dev nD) (E : Set ℕ) (i : grid0.Coords)
    (arg1 : Memref sig .tc .vmem S128x256 .f32) (harg1 : arg1.IsWhole) (arg2 : Memref sig .tc .vmem S1024x256 .f32) (harg2 : arg2.IsWhole)
    (arg3 : Memref sig .tc .vmem S1x1024 .f32) (harg3 : arg3.IsWhole) (arg4 : Memref sig .tc .vmem S128x1024 .f32) (harg4 : arg4.IsWhole)
    (arg5 : Memref sig .tc .vmem S128x1024 .f32) (harg5 : arg5.IsWhole)
    (x0 : Vec F S128x256 .f32) (x1 : Vec F S1024x256 .f32) (x2 : Vec F S1x1024 .f32) (x3 : Vec F S128x1024 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out4 i x0 x1 x2 x3)) -∗ K ⟨⟩))
      ⊢ wp frame (wpE (defs₀ (F := F)) Variants.none c none) E (cc0__kernel i arg1 harg1 arg2 harg2 arg3 harg3 arg4 harg4 arg5 harg5) K := by
  simp only [cc0__kernel_eq_skeleton]; unfold cc0__kernel_skel
  simp only [k0_part1_eq_skeleton]
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover4 _)

/-! ## The pipeline's proof data -/

/-- The proof data on core `c`: the arrays as the region finds them; after the body at point `t` each input's buffer at its
    block and the result's at `out4` of the four blocks; nothing carried between points but the idle scoped buffers;
    y_pred's two windows at the two halves of the full share; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => out4 (grid0.coords t) (iblk m c 0 t) (iblk m c 1 t) (iblk m c 2 t) (iblk m c 3 t)
  Φ _ := Pipeline.scopedRest (Ix := Unit) (Name := ℕ) (U := UR sig nD τ) (Lvl := ℕ) (Val := Elt F) spec0 c
  q w := match w with
    | ⟨0, _⟩ => fullShare.left
    | ⟨1, _⟩ => fullShare.right
    | ⟨2, _⟩ => fullShare
    | ⟨3, _⟩ => fullShare
    | ⟨4, _⟩ => fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t
    = out4 (grid0.coords t) (iblk m c 0 t) (iblk m c 1 t) (iblk m c 2 t) (iblk m c 3 t) := by dsimp only [dats]

theorem before0 (c : Dev nD) (t : Fin cfg0.N) (d) : (dats m 0 c).before 0 t d = iblk m c 0 t :=
  before_in0_of m (dats m 0 c) (A_eq m c 0) (after0 m c) t d
theorem before1 (c : Dev nD) (t : Fin cfg0.N) (d) : (dats m 0 c).before 1 t d = iblk m c 1 t :=
  before_in1_of m (dats m 0 c) (A_eq m c 1) (after1 m c) t d
theorem before2 (c : Dev nD) (t : Fin cfg0.N) (d) : (dats m 0 c).before 2 t d = iblk m c 2 t :=
  before_in2_of m (dats m 0 c) (A_eq m c 2) (after2 m c) t d
theorem before3 (c : Dev nD) (t : Fin cfg0.N) (d) : (dats m 0 c).before 3 t d = iblk m c 3 t :=
  before_in3_of m (dats m 0 c) (A_eq m c 3) (after3 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- The body at any point: the inputs' buffers hold their blocks, so the body's triple applies; the invariant and the
    core's debts pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).Φ t.succ = (dats m 0 c).Φ t.castSucc from rfl,
    show (dats m 0 c).owesAt () t.succ = (dats m 0 c).owesAt () t.castSucc from rfl,
    after0, after1, after2, after3, after4]
  iintro ⟨HΦ, Ho, ⟨%d0, H0⟩, ⟨%d1, H1⟩, ⟨%d2, H2⟩, ⟨%d3, H3⟩, ⟨%d4, H4⟩⟩
  iapply (sound_kernel c Set.univ (grid0.coords t) _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation (c : Dev nD) : BodyObligation (dats (F := F) m 0 c) (defs₀ (F := F)) Variants.none () Set.univ := fun t => by
  rw [bigSep_W0, bigSep_W0]
  exact sound_body m c t

/-! ## The arrays at the region's entry: y_pred dealt in two halves -/

/-- A window's array, a whole buffer, held at a share: the plain points-to of the buffer behind it. -/
theorem arr_pt (c : Dev nD) (w : Fin cfg0.W) (q : PosShare TreeShare) (X : Buf (Elt F) ((cfg0.win w).arr.view.loc (c.tc : Thread nD τ))) :
    ((cfg0.win w).arr.view.loc (c.tc : Thread nD τ) ↦[(cfg0.win w).arr.view.set]{q} X : sProp 𝕄)
      = (((c.tc : Thread nD τ).loc (Pipeline.arrRef spec0 w)) ↦{q} X) := by
  rw [(arr_whole0 w).set_eq_univ]

/-- The three buffers behind the five windows' arrays, each held whole, make the windows' arrays at their shares:
    y_pred's full share splits into the halves of windows 0 and 1. -/
theorem arrays_of_bufs (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  unfold Pipeline.arrBufs Dat.arrays
  rw [bigSep_W0]
  rw [bigSep_eq_bigSepL_of_eq [main_arg1, main_v2, main_arg0, main_v3] (by decide) (by decide)]
  simp only [bigSepL_cons_cons, bigSepL_singleton]
  rw [arr_pt c 0, arr_pt c 1, arr_pt c 2, arr_pt c 3, arr_pt c 4]
  have hs0 : (dats m 0 c).share 0 = fullShare.left := rfl
  have hs1 : (dats m 0 c).share 1 = fullShare.right := rfl
  have hs2 : (dats m 0 c).share 2 = fullShare := rfl
  have hs3 : (dats m 0 c).share 3 = fullShare := rfl
  have hs4 : (dats m 0 c).share 4 = fullShare := rfl
  rw [hs0, hs1, hs2, hs3, hs4]
  show iprop((((c.tc : Thread nD τ).loc main_arg1) ↦{fullShare} V m c main_arg1) ∗ (((c.tc : Thread nD τ).loc main_v2) ↦{fullShare} V m c main_v2)
        ∗ (((c.tc : Thread nD τ).loc main_arg0) ↦{fullShare} V m c main_arg0) ∗ (((c.tc : Thread nD τ).loc main_v3) ↦{fullShare} V m c main_v3)) ⊢ _
  iintro ⟨H1, H2, H0, H3⟩
  ihave H1' := (pointsTo_share (PosShare.mem_left_op_right fullShare)).1 $$ H1
  icases H1' with ⟨H1l, H1r⟩
  isplitl [H1l]; · iexact H1l
  isplitl [H1r]; · iexact H1r
  isplitl [H2]; · iexact H2
  isplitl [H0]; · iexact H0
  iexact H3

/-! ## The run -/

-- the launch theorem's implicit arguments are found by unifying its conclusion with this one, which takes unfolding plain
-- definitions in a metavariable's type
set_option backward.isDefEq.respectTransparency.types false in
/-- From any memory with zero counters every weakly fair execution of @main terminates, and every window's array ends at
    what the proof data compute. The arrays behind the windows are dealt by `arrays_of_bufs`; the bypassing buffers
    (the squares, the zero, the unreshaped sums) ride along untouched and nothing is claimed of them. -/
theorem run_main : θ_run defs (onTc (τ := τ) (main (F := F))) (s₀ m ρ)
    (fun r => ∀ c : Dev nD, ∀ w, r.2.mem ((spec0 w).arr.view.loc (c.tc : Thread nD τ)) = (dats m 0 c).arrAt w cfg0.N) :=
  Pipeline.θ_run_region_noSem_shared cfgs (dats m) () cellOf_inj (0 : Fin 1) winFacts₀0 emb₁ defs₀ Variants.none m ρ main
    (hbody := fun c => (body_obligation m c).loose)
    (hne := block_pos0) (harr := arr_whole0) (hstage := stage_whole0)
    (howed := fun _ _ => rfl)
    (u₀ := initOf (Pipeline.cells cfgs cellOf_inj) (Pipeline.launchToks cfgs cellOf_inj))
    (hu₀ := .rfl)
    (V := V m) (hmain := hmain m Variants.none)
    (hsplit := arrays_of_bufs m)
    (X := fun _ => iprop(emp)) (Y := fun _ => iprop(emp))
    (Z := fun c => Pipeline.unscopedRest (Ix := Unit) (Name := ℕ) (U := UR sig nD τ) (Lvl := ℕ) spec0 c (V m c))
    (hX := fun c => by
      iintro H
      isplitr; · iempintro
      iexact H)
    (hin := fun c => by
      dsimp only [dats]
      iintro ⟨-, H⟩
      iexact H)
    (hout := fun c => by
      dsimp only [dats]
      iintro H
      isplitr; · iempintro
      iexact H)
    (QY := fun _ _ => True)
    (hY := fun c s' => by
      iintro ⟨-, -, HSI⟩
      imodintro
      isplitr; · ipureintro; trivial
      iexact HSI)
    (hQ := fun s h c w => (h c).1 w)

/-- info: 'Cert.KernelIdeal.Region.run_main' depends on axioms: [propext, Classical.choice, Quot.sound] -/
#guard_msgs in #print axioms run_main

/-- The run read at the program's arrays: the result array holds what the write-backs of the 8 points left, and the two
    argument arrays, which only input windows read, are as launched. -/
theorem run_value : θ_run defs (onTc (τ := τ) (main (F := F))) ⟨m, fun _ => 0, ρ⟩ (fun r => ∀ c : Dev nD,
      r.2.mem ((c.tc : Thread nD τ).loc main_v3) = (dats m 0 c).arrAt 4 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨h c 4,
      ((h c 3).trans ((dats m 0 c).arrAt_in 3 rfl _)).trans ((A_eq m c 3).trans (V_main_arg0 m c)),
      ((h c 0).trans ((dats m 0 c).arrAt_in 0 rfl _)).trans ((A_eq m c 0).trans (V_main_arg1 m c))⟩) (run_main m ρ)

/-- The program runs to the end, faults nowhere, and leaves its argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => (h c).2) (run_value m ρ)

end Cert.KernelIdeal.Region

end
-- ==== Proof.RefRun.lean ====
/-
  The reference's run, read stretch by stretch.

  @main is 32 host operations in a row. The first 8 compute  d[i,j] = Σ_k (y_pred[j,k] − y_pred[i,k])²  (two broadcasts of
  y_pred to [1024,1024,256], their difference, its square, the sum over k from 0). The next 15 are pointwise on [1024,1024]:
  the mask  d = 0  as 0 or 1, √(d + mask·ε)·(1 − mask), minus y_true, squared. The last 9 are the upper-triangular cut: row and
  column counters, the test  i − 1 ≥ j,  and the choice of 0 there and of the square elsewhere.
  The contents after a list of operations are a fold over the list, and the fold over an appended list is the fold over its
  second part from the fold over its first. So each stretch is read once, from ANY starting contents, its result a stage
  function of what it found in the buffers it reads; the three compose to the last stage of all 32.
-/
import proofs.«169944_j33036888441194_1_alg».proof.Proof.RefStages
import Idealize.ShloMosaic.Lib.StableHlo.Run
import Idealize.ShloMosaic.Lib.Pipeline.Frame

noncomputable section

namespace Cert.ReferenceIdeal.HostRun

open Cert.ReferenceIdeal Cert.ReferenceIdeal.Gen Cert.ReferenceIdeal.Stages
open Idealize.ShloMosaic Idealize.ShloMosaic.TcCoe Idealize.SL.Sem Idealize.ShloMosaic.StableHlo

variable {F : FTy → Type} [FloatOps F]

/-- The distance sums: operations 1–8. -/
abbrev opsDist : List (HloOp τ sig (Elt F)) :=
  [ unary main_arg1 main_v0 (broadcastInDim S1x1024x256 ![1, 2] bcast_S1024x256_S1x1024x256_1_2 : (⟨S1024x256, .f32⟩ : BufTy).Contents (Elt F) → (⟨S1x1024x256, .f32⟩ : BufTy).Contents (Elt F)),
    unary main_arg1 main_v1 (broadcastInDim S1024x1x256 ![0, 2] bcast_S1024x256_S1024x1x256_0_2 : (⟨S1024x256, .f32⟩ : BufTy).Contents (Elt F) → (⟨S1024x1x256, .f32⟩ : BufTy).Contents (Elt F)),
    unary main_v0 main_v2 (broadcastInDim S1024x1024x256 ![0, 1, 2] bcast_S1x1024x256_S1024x1024x256_0_1_2 : (⟨S1x1024x256, .f32⟩ : BufTy).Contents (Elt F) → (⟨S1024x1024x256, .f32⟩ : BufTy).Contents (Elt F)),
    unary main_v1 main_v3 (broadcastInDim S1024x1024x256 ![0, 1, 2] bcast_S1024x1x256_S1024x1024x256_0_1_2 : (⟨S1024x1x256, .f32⟩ : BufTy).Contents (Elt F) → (⟨S1024x1024x256, .f32⟩ : BufTy).Contents (Elt F)),
    binary main_v2 main_v3 main_v4 (subf : (⟨S1024x1024x256, .f32⟩ : BufTy).Contents (Elt F) → (⟨S1024x1024x256, .f32⟩ : BufTy).Contents (Elt F) → (⟨S1024x1024x256, .f32⟩ : BufTy).Contents (Elt F)),
    binary main_v4 main_v4 main_v5 (mulf : (⟨S1024x1024x256, .f32⟩ : BufTy).Contents (Elt F) → (⟨S1024x1024x256, .f32⟩ : BufTy).Contents (Elt F) → (⟨S1024x1024x256, .f32⟩ : BufTy).Contents (Elt F)),
    nullary main_cst (constant S_ .f32 0x00000000#32),
    binary main_v5 main_cst main_v6 ((fun x v => Host.reduceAdd x v reducesTo_S1024x1024x256_S1024x1024_d2 h_S_) : (⟨S1024x1024x256, .f32⟩ : BufTy).Contents (Elt F) → (⟨S_, .f32⟩ : BufTy).Contents (Elt F) → (⟨S1024x1024, .f32⟩ : BufTy).Contents (Elt F)) ]

/-- The pointwise tail: operations 9–23. -/
abbrev opsTail : List (HloOp τ sig (Elt F)) :=
  [ nullary main_cst_0 (constant S_ .f32 0x00000000#32),
    unary main_cst_0 main_v7 (broadcastInDim S1024x1024 ![] bcast_S_S1024x1024 : (⟨S_, .f32⟩ : BufTy).Contents (Elt F) → (⟨S1024x1024, .f32⟩ : BufTy).Contents (Elt F)),
    binary main_v6 main_v7 main_v8 (cmpf .oeq : (⟨S1024x1024, .f32⟩ : BufTy).Contents (Elt F) → (⟨S1024x1024, .f32⟩ : BufTy).Contents (Elt F) → (⟨S1024x1024, .i1⟩ : BufTy).Contents (Elt F)),
    unary main_v8 main_v9 (uitofp .f32 : (⟨S1024x1024, .i1⟩ : BufTy).Contents (Elt F) → (⟨S1024x1024, .f32⟩ : BufTy).Contents (Elt F)),
    nullary main_cst_1 (constant S_ .f32 0x33D6BF95#32),
    unary main_cst_1 main_v10 (broadcastInDim S1024x1024 ![] bcast_S_S1024x1024 : (⟨S_, .f32⟩ : BufTy).Contents (Elt F) → (⟨S1024x1024, .f32⟩ : BufTy).Contents (Elt F)),
    binary main_v9 main_v10 main_v11 (mulf : (⟨S1024x1024, .f32⟩ : BufTy).Contents (Elt F) → (⟨S1024x1024, .f32⟩ : BufTy).Contents (Elt F) → (⟨S1024x1024, .f32⟩ : BufTy).Contents (Elt F)),
    binary main_v6 main_v11 main_v12 (addf : (⟨S1024x1024, .f32⟩ : BufTy).Contents (Elt F) → (⟨S1024x1024, .f32⟩ : BufTy).Contents (Elt F) → (⟨S1024x1024, .f32⟩ : BufTy).Contents (Elt F)),
    unary main_v12 main_v13 (Host.sqrt : (⟨S1024x1024, .f32⟩ : BufTy).Contents (Elt F) → (⟨S1024x1024, .f32⟩ : BufTy).Contents (Elt F)),
    nullary main_cst_2 (constant S_ .f32 0x3F800000#32),
    unary main_cst_2 main_v14 (broadcastInDim S1024x1024 ![] bcast_S_S1024x1024 : (⟨S_, .f32⟩ : BufTy).Contents (Elt F) → (⟨S1024x1024, .f32⟩ : BufTy).Contents (Elt F)),
    binary main_v14 main_v9 main_v15 (subf : (⟨S1024x1024, .f32⟩ : BufTy).Contents (Elt F) → (⟨S1024x1024, .f32⟩ : BufTy).Contents (Elt F) → (⟨S1024x1024, .f32⟩ : BufTy).Contents (Elt F)),
    binary main_v13 main_v15 main_v16 (mulf : (⟨S1024x1024, .f32⟩ : BufTy).Contents (Elt F) → (⟨S1024x1024, .f32⟩ : BufTy).Contents (Elt F) → (⟨S1024x1024, .f32⟩ : BufTy).Contents (Elt F)),
    binary main_v16 main_arg0 main_v17 (subf : (⟨S1024x1024, .f32⟩ : BufTy).Contents (Elt F) → (⟨S1024x1024, .f32⟩ : BufTy).Contents (Elt F) → (⟨S1024x1024, .f32⟩ : BufTy).Contents (Elt F)),
    binary main_v17 main_v17 main_v18 (mulf : (⟨S1024x1024, .f32⟩ : BufTy).Contents (Elt F) → (⟨S1024x1024, .f32⟩ : BufTy).Contents (Elt F) → (⟨S1024x1024, .f32⟩ : BufTy).Contents (Elt F)) ]

/-- The upper-triangular cut: operations 24–32. -/
abbrev opsTriu : List (HloOp τ sig (Elt F)) :=
  [ TRef.nullary (TRef.of (T := ⟨S1024x1024, .i32⟩) main_call0_v0) (iotaInDim S1024x1024 32 0),
    TRef.nullary (TRef.of (T := ⟨S_, .i32⟩) main_call0_c) (constantI S_ 32 4294967295#32),
    TRef.unary (TRef.of (T := ⟨S_, .i32⟩) main_call0_c) (TRef.of (T := ⟨S1024x1024, .i32⟩) main_call0_v1) (broadcastInDim S1024x1024 ![] bcast_S_S1024x1024),
    TRef.binary (TRef.of (T := ⟨S1024x1024, .i32⟩) main_call0_v0) (TRef.of (T := ⟨S1024x1024, .i32⟩) main_call0_v1) (TRef.of (T := ⟨S1024x1024, .i32⟩) main_call0_v2) addi,
    TRef.nullary (TRef.of (T := ⟨S1024x1024, .i32⟩) main_call0_v3) (iotaInDim S1024x1024 32 1),
    TRef.binary (TRef.of (T := ⟨S1024x1024, .i32⟩) main_call0_v2) (TRef.of (T := ⟨S1024x1024, .i32⟩) main_call0_v3) (TRef.of (T := ⟨S1024x1024, .i1⟩) main_call0_v4) (cmpi .sge),
    TRef.nullary (TRef.of (T := ⟨S_, .f32⟩) main_call0_cst) (constant S_ .f32 0x00000000#32),
    TRef.unary (TRef.of (T := ⟨S_, .f32⟩) main_call0_cst) (TRef.of (T := ⟨S1024x1024, .f32⟩) main_call0_v5) (broadcastInDim S1024x1024 ![] bcast_S_S1024x1024),
    TRef.ternary (TRef.of (T := ⟨S1024x1024, .i1⟩) main_call0_v4) (TRef.of (T := ⟨S1024x1024, .f32⟩) main_call0_v5) (TRef.of (T := ⟨S1024x1024, .f32⟩) main_v18) (TRef.of (T := ⟨S1024x1024, .f32⟩) main_v19) select ]

/-- @main's 32 operations, in order. -/
abbrev ops : List (HloOp τ sig (Elt F)) :=
  [ unary main_arg1 main_v0 (broadcastInDim S1x1024x256 ![1, 2] bcast_S1024x256_S1x1024x256_1_2 : (⟨S1024x256, .f32⟩ : BufTy).Contents (Elt F) → (⟨S1x1024x256, .f32⟩ : BufTy).Contents (Elt F)),
    unary main_arg1 main_v1 (broadcastInDim S1024x1x256 ![0, 2] bcast_S1024x256_S1024x1x256_0_2 : (⟨S1024x256, .f32⟩ : BufTy).Contents (Elt F) → (⟨S1024x1x256, .f32⟩ : BufTy).Contents (Elt F)),
    unary main_v0 main_v2 (broadcastInDim S1024x1024x256 ![0, 1, 2] bcast_S1x1024x256_S1024x1024x256_0_1_2 : (⟨S1x1024x256, .f32⟩ : BufTy).Contents (Elt F) → (⟨S1024x1024x256, .f32⟩ : BufTy).Contents (Elt F)),
    unary main_v1 main_v3 (broadcastInDim S1024x1024x256 ![0, 1, 2] bcast_S1024x1x256_S1024x1024x256_0_1_2 : (⟨S1024x1x256, .f32⟩ : BufTy).Contents (Elt F) → (⟨S1024x1024x256, .f32⟩ : BufTy).Contents (Elt F)),
    binary main_v2 main_v3 main_v4 (subf : (⟨S1024x1024x256, .f32⟩ : BufTy).Contents (Elt F) → (⟨S1024x1024x256, .f32⟩ : BufTy).Contents (Elt F) → (⟨S1024x1024x256, .f32⟩ : BufTy).Contents (Elt F)),
    binary main_v4 main_v4 main_v5 (mulf : (⟨S1024x1024x256, .f32⟩ : BufTy).Contents (Elt F) → (⟨S1024x1024x256, .f32⟩ : BufTy).Contents (Elt F) → (⟨S1024x1024x256, .f32⟩ : BufTy).Contents (Elt F)),
    nullary main_cst (constant S_ .f32 0x00000000#32),
    binary main_v5 main_cst main_v6 ((fun x v => Host.reduceAdd x v reducesTo_S1024x1024x256_S1024x1024_d2 h_S_) : (⟨S1024x1024x256, .f32⟩ : BufTy).Contents (Elt F) → (⟨S_, .f32⟩ : BufTy).Contents (Elt F) → (⟨S1024x1024, .f32⟩ : BufTy).Contents (Elt F)),
    nullary main_cst_0 (constant S_ .f32 0x00000000#32),
    unary main_cst_0 main_v7 (broadcastInDim S1024x1024 ![] bcast_S_S1024x1024 : (⟨S_, .f32⟩ : BufTy).Contents (Elt F) → (⟨S1024x1024, .f32⟩ : BufTy).Contents (Elt F)),
    binary main_v6 main_v7 main_v8 (cmpf .oeq : (⟨S1024x1024, .f32⟩ : BufTy).Contents (Elt F) → (⟨S1024x1024, .f32⟩ : BufTy).Contents (Elt F) → (⟨S1024x1024, .i1⟩ : BufTy).Contents (Elt F)),
    unary main_v8 main_v9 (uitofp .f32 : (⟨S1024x1024, .i1⟩ : BufTy).Contents (Elt F) → (⟨S1024x1024, .f32⟩ : BufTy).Contents (Elt F)),
    nullary main_cst_1 (constant S_ .f32 0x33D6BF95#32),
    unary main_cst_1 main_v10 (broadcastInDim S1024x1024 ![] bcast_S_S1024x1024 : (⟨S_, .f32⟩ : BufTy).Contents (Elt F) → (⟨S1024x1024, .f32⟩ : BufTy).Contents (Elt F)),
    binary main_v9 main_v10 main_v11 (mulf : (⟨S1024x1024, .f32⟩ : BufTy).Contents (Elt F) → (⟨S1024x1024, .f32⟩ : BufTy).Contents (Elt F) → (⟨S1024x1024, .f32⟩ : BufTy).Contents (Elt F)),
    binary main_v6 main_v11 main_v12 (addf : (⟨S1024x1024, .f32⟩ : BufTy).Contents (Elt F) → (⟨S1024x1024, .f32⟩ : BufTy).Contents (Elt F) → (⟨S1024x1024, .f32⟩ : BufTy).Contents (Elt F)),
    unary main_v12 main_v13 (Host.sqrt : (⟨S1024x1024, .f32⟩ : BufTy).Contents (Elt F) → (⟨S1024x1024, .f32⟩ : BufTy).Contents (Elt F)),
    nullary main_cst_2 (constant S_ .f32 0x3F800000#32),
    unary main_cst_2 main_v14 (broadcastInDim S1024x1024 ![] bcast_S_S1024x1024 : (⟨S_, .f32⟩ : BufTy).Contents (Elt F) → (⟨S1024x1024, .f32⟩ : BufTy).Contents (Elt F)),
    binary main_v14 main_v9 main_v15 (subf : (⟨S1024x1024, .f32⟩ : BufTy).Contents (Elt F) → (⟨S1024x1024, .f32⟩ : BufTy).Contents (Elt F) → (⟨S1024x1024, .f32⟩ : BufTy).Contents (Elt F)),
    binary main_v13 main_v15 main_v16 (mulf : (⟨S1024x1024, .f32⟩ : BufTy).Contents (Elt F) → (⟨S1024x1024, .f32⟩ : BufTy).Contents (Elt F) → (⟨S1024x1024, .f32⟩ : BufTy).Contents (Elt F)),
    binary main_v16 main_arg0 main_v17 (subf : (⟨S1024x1024, .f32⟩ : BufTy).Contents (Elt F) → (⟨S1024x1024, .f32⟩ : BufTy).Contents (Elt F) → (⟨S1024x1024, .f32⟩ : BufTy).Contents (Elt F)),
    binary main_v17 main_v17 main_v18 (mulf : (⟨S1024x1024, .f32⟩ : BufTy).Contents (Elt F) → (⟨S1024x1024, .f32⟩ : BufTy).Contents (Elt F) → (⟨S1024x1024, .f32⟩ : BufTy).Contents (Elt F)),
    TRef.nullary (TRef.of (T := ⟨S1024x1024, .i32⟩) main_call0_v0) (iotaInDim S1024x1024 32 0),
    TRef.nullary (TRef.of (T := ⟨S_, .i32⟩) main_call0_c) (constantI S_ 32 4294967295#32),
    TRef.unary (TRef.of (T := ⟨S_, .i32⟩) main_call0_c) (TRef.of (T := ⟨S1024x1024, .i32⟩) main_call0_v1) (broadcastInDim S1024x1024 ![] bcast_S_S1024x1024),
    TRef.binary (TRef.of (T := ⟨S1024x1024, .i32⟩) main_call0_v0) (TRef.of (T := ⟨S1024x1024, .i32⟩) main_call0_v1) (TRef.of (T := ⟨S1024x1024, .i32⟩) main_call0_v2) addi,
    TRef.nullary (TRef.of (T := ⟨S1024x1024, .i32⟩) main_call0_v3) (iotaInDim S1024x1024 32 1),
    TRef.binary (TRef.of (T := ⟨S1024x1024, .i32⟩) main_call0_v2) (TRef.of (T := ⟨S1024x1024, .i32⟩) main_call0_v3) (TRef.of (T := ⟨S1024x1024, .i1⟩) main_call0_v4) (cmpi .sge),
    TRef.nullary (TRef.of (T := ⟨S_, .f32⟩) main_call0_cst) (constant S_ .f32 0x00000000#32),
    TRef.unary (TRef.of (T := ⟨S_, .f32⟩) main_call0_cst) (TRef.of (T := ⟨S1024x1024, .f32⟩) main_call0_v5) (broadcastInDim S1024x1024 ![] bcast_S_S1024x1024),
    TRef.ternary (TRef.of (T := ⟨S1024x1024, .i1⟩) main_call0_v4) (TRef.of (T := ⟨S1024x1024, .f32⟩) main_call0_v5) (TRef.of (T := ⟨S1024x1024, .f32⟩) main_v18) (TRef.of (T := ⟨S1024x1024, .f32⟩) main_v19) select ]

theorem ops_split : (ops : List (HloOp τ sig (Elt F))) = opsDist ++ (opsTail ++ opsTriu) := rfl

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨unary_bufs_sub .., unary_bufs_sub .., unary_bufs_sub .., unary_bufs_sub .., binary_bufs_sub .., binary_bufs_sub .., nullary_bufs_sub .., binary_bufs_sub .., nullary_bufs_sub .., unary_bufs_sub .., binary_bufs_sub .., unary_bufs_sub .., nullary_bufs_sub .., unary_bufs_sub .., binary_bufs_sub .., binary_bufs_sub .., unary_bufs_sub .., nullary_bufs_sub .., unary_bufs_sub .., binary_bufs_sub .., binary_bufs_sub .., binary_bufs_sub .., binary_bufs_sub .., nullary_bufs_sub .., nullary_bufs_sub .., unary_bufs_sub .., binary_bufs_sub .., nullary_bufs_sub .., binary_bufs_sub .., nullary_bufs_sub .., unary_bufs_sub .., ternary_bufs_sub ..⟩

/-! ## Typed references: contents moved to a buffer and back

A module-local function's values are held through references that carry the value's type; contents are moved to the buffer's
own type and back along the equation of the two types. -/

/-- To the buffer and back is the identity, for any typed reference. -/
theorem ofBuf_toBuf {T : BufTy} (x : TRef sig T) (v : T.Contents (Elt F)) : x.ofBuf (x.toBuf v) = v := by
  obtain ⟨r, h, h2, h3⟩ := x
  subst h
  rfl

/-- At the literal result reference the two types are one, and the move is the identity. -/
theorem toBuf_result (v : (⟨S1024x1024, .f32⟩ : BufTy).Contents (Elt F)) : (TRef.of (T := ⟨S1024x1024, .f32⟩) main_v19).toBuf v = v := rfl

/-- Likewise at the literal reference of the cut's operand. -/
theorem ofBuf_operand (v : (⟨S1024x1024, .f32⟩ : BufTy).Contents (Elt F)) : (TRef.of (T := ⟨S1024x1024, .f32⟩) main_v18).ofBuf v = v := rfl

/-! ## The three stretches, from any contents -/

/-- After the first stretch the distance buffer holds the sums over `k` of what y_pred's buffer held. -/
theorem dist_result (V : Valuation τ sig (Elt F)) :
    after opsDist V (Proc.devRef .tc main_v6) = val_main_v6 (F := F) (V (Proc.devRef .tc main_arg1)) := by
  after_results_simp <;> rfl

/-- The first stretch does not write y_true. -/
theorem dist_keeps_arg0 (V : Valuation τ sig (Elt F)) :
    after opsDist V (Proc.devRef .tc main_arg0) = V (Proc.devRef .tc main_arg0) := by
  after_results_simp <;> rfl

/-- After the second stretch, from contents whose distance buffer holds the sums of `x1` and whose y_true buffer holds `x0`,
    the squared difference is the stage of `x0` and `x1`. -/
theorem tail_result (W : Valuation τ sig (Elt F)) (x0 : (⟨S1024x1024, .f32⟩ : BufTy).Contents (Elt F)) (x1 : (⟨S1024x256, .f32⟩ : BufTy).Contents (Elt F))
    (h6 : W (Proc.devRef .tc main_v6) = val_main_v6 (F := F) x1) (h0 : W (Proc.devRef .tc main_arg0) = x0) :
    after opsTail W (Proc.devRef .tc main_v18) = val_main_v18 (F := F) x0 x1 := by
  after_results_simp
  rw [h6, h0]
  rfl

/-- After the third stretch, from contents whose squared-difference buffer holds `y`, the result is the cut of `y`:
    the references of the cut's own values are literal, so moving contents to and from their buffers is the identity. -/
theorem triu_result (W : Valuation τ sig (Elt F)) (y : (⟨S1024x1024, .f32⟩ : BufTy).Contents (Elt F))
    (h18 : W (Proc.devRef .tc main_v18) = y) :
    after opsTriu W (Proc.devRef .tc main_v19) = select (val_main_call0_v4 (F := F)) (val_main_call0_v5 (F := F)) y := by
  after_results_simp
  rw [h18]
  simp only [ofBuf_toBuf, toBuf_result, ofBuf_operand]
  unfold val_main_call0_v4 val_main_call0_v5 val_main_call0_v2 val_main_call0_v3 val_main_call0_v0 val_main_call0_v1 val_main_call0_c val_main_call0_cst
  rfl

/-- All 32 operations: the result buffer ends at the last stage of what the argument buffers held. -/
theorem ops_result (V : Valuation τ sig (Elt F)) :
    after ops V (Proc.devRef .tc main_v19)
      = val_main_v19 (F := F) (V (Proc.devRef .tc main_arg0)) (V (Proc.devRef .tc main_arg1)) := by
  rw [ops_split, StableHlo.after_append, StableHlo.after_append]
  exact triu_result _ _ (tail_result _ _ _ (dist_result V) (dist_keeps_arg0 V))

/-! ## The run -/

set_option maxHeartbeats 2000000 in
/-- From any memory with zero counters every weakly fair execution of @main terminates, with the result at the last stage
    of the argument arrays and the argument arrays unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v19)
        = val_main_v19 (F := F) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v19).trans (ops_result _),
      (h c main_arg0).trans (by after_results_simp <;> rfl),
      (h c main_arg1).trans (by after_results_simp <;> rfl)⟩)
    (run_seq scopedRefs_eq scopedSems_eq defs main (fun _ => ops) main_eq (fun _ => ops_sub) m ρ)

end Cert.ReferenceIdeal.HostRun

end
-- ==== Proof.KernelPoint.lean ====
/-
  The kernel body's three sums and two counters, read at one entry (r, q) of a [128, 1024] block.

  From a block x0 of 128 rows of y_pred, all 1024 rows x1 of y_pred, and the row x2 of host-computed norms:
    the keepdims lane sum of x0·x0, broadcast along the columns, reads  Σ_k x0[r,k]²;
    the norms row, broadcast along the rows, reads  x2[0,q];
    the matrix product of x0 with x1 transposed, into a zero accumulator, reads  Σ_k x0[r,k]·x1[q,k];
    the row counter reads r and the column counter reads q, as 32-bit words.
-/
import proofs.«169944_j33036888441194_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Point

open Idealize.ShloMosaic Idealize.ShloMosaic.ValueIdx Cert.KernelIdeal Cert.KernelIdeal.Gen

/-! ## The row norms of the block -/

/-- The lane sum over axis 1 reads, at row `r`, the sum over `k` of the source at (r, k). -/
theorem rowsum_apply (y : FVec Ideal S128x256 .f32) (r : Fin 128) :
    multiReduction .add [1] S128 y 0x00000000#32 Facts₀.reduces_S128x256_S128 (.inl rfl) rfl (ix1 r) = ∑ k : Fin 256, y (ix2 r k) := by
  refine (Ideal.multiReduction_add_single y 0x00000000#32 Facts₀.reduces_S128x256_S128 (.inl rfl) rfl (ix1 r)).trans ?_
  refine Finset.sum_congr rfl fun k _ => ?_
  exact congrArg y (funext fun a => Fin.ext (by match a with | ⟨0, _⟩ => rfl | ⟨1, _⟩ => rfl))

/-- The block's squared row norms, kept as a column and broadcast along the 1024 columns. -/
theorem rowsq_apply (x0 : FVec Ideal S128x256 .f32) (r : Fin 128) (q : Fin 1024) :
    broadcastTo S128x1024 (shapeCast S128x1 (multiReduction .add [1] S128 (mulf x0 x0) 0x00000000#32 Facts₀.reduces_S128x256_S128 (.inl rfl) rfl) Facts₀.shapeCasts_S128_S128x1)
        Facts₀.broadcasts_S128x1_S128x1024 (ix2 r q)
      = ∑ k : Fin 256, x0 (ix2 r k) * x0 (ix2 r k) := by
  refine (broadcastTo_apply _ Facts₀.broadcasts_S128x1_S128x1024 (ix2 r q) (ix2 r (0 : Fin 1)) (fun a => ?_)).trans ?_
  · match a with
    | ⟨0, _⟩ => show r.val = if (128 : Nat) = 1 then 0 else r.val; rw [if_neg (by decide)]
    | ⟨1, _⟩ => show (0 : Nat) = if (1 : Nat) = 1 then 0 else q.val; rw [if_pos rfl]
  refine (shapeCast_apply _ Facts₀.shapeCasts_S128_S128x1 (ix2 r (0 : Fin 1)) (ix1 r) ?_).trans ?_
  · rw [Shape.rowMajor_val_one, Shape.rowMajor_val_two]
    show r.val = r.val * 1 + 0
    omega
  exact rowsum_apply (mulf x0 x0) r

/-! ## The norms row -/

/-- The [1, 1024] row of norms, broadcast along the 128 rows. -/
theorem normrow_apply (x2 : FVec Ideal S1x1024 .f32) (r : Fin 128) (q : Fin 1024) :
    broadcastTo S128x1024 (shapeCast S1x1024 x2 Facts₀.shapeCasts_S1x1024_S1x1024) Facts₀.broadcasts_S1x1024_S128x1024 (ix2 r q) = x2 (ix2 (0 : Fin 1) q) := by
  rw [shapeCast_self]
  exact broadcastTo_1b_ab_apply x2 Facts₀.broadcasts_S1x1024_S128x1024 r q

/-! ## The product of the block with all rows -/

theorem lhs_axis0 (j : S128x1024.Idx) (k : dot_S128x256_S1024x256_S128x1024_1_1_0_0_n_n.contr.Idx) : ((dot_S128x256_S1024x256_S128x1024_1_1_0_0_n_n.lhsIdx j k) 0).val = (j 0).val := rfl
theorem lhs_axis1 (j : S128x1024.Idx) (k : dot_S128x256_S1024x256_S128x1024_1_1_0_0_n_n.contr.Idx) : ((dot_S128x256_S1024x256_S128x1024_1_1_0_0_n_n.lhsIdx j k) 1).val = (k ⟨0, by decide⟩).val :=
  dot_S128x256_S1024x256_S128x1024_1_1_0_0_n_n.lhsIdx_val_of_single rfl j k
theorem rhs_axis0 (j : S128x1024.Idx) (k : dot_S128x256_S1024x256_S128x1024_1_1_0_0_n_n.contr.Idx) : ((dot_S128x256_S1024x256_S128x1024_1_1_0_0_n_n.rhsIdx j k) 0).val = (j 1).val := rfl
theorem rhs_axis1 (j : S128x1024.Idx) (k : dot_S128x256_S1024x256_S128x1024_1_1_0_0_n_n.contr.Idx) : ((dot_S128x256_S1024x256_S128x1024_1_1_0_0_n_n.rhsIdx j k) 1).val = (k ⟨0, by decide⟩).val :=
  dot_S128x256_S1024x256_S128x1024_1_1_0_0_n_n.rhsIdx_val_of_single rfl j k

/-- Both operands are contracted over their axis 1: entry (r, q) is the sum over `k` of x0[r,k]·x1[q,k]. -/
theorem gram_apply (x0 : FVec Ideal S128x256 .f32) (x1 : FVec Ideal S1024x256 .f32) (r : Fin 128) (q : Fin 1024) :
    matmul dot_S128x256_S1024x256_S128x1024_1_1_0_0_n_n (some .fp32) x0 x1 (constant S128x1024 .f32 0x00000000#32) (ix2 r q)
      = ∑ k : Fin 256, x0 (ix2 r k) * x1 (ix2 q k) := by
  refine (Ideal.matmul_constant_zero_apply dot_S128x256_S1024x256_S128x1024_1_1_0_0_n_n (some .fp32) x0 x1 (ix2 r q)).trans ?_
  rw [← Equiv.sum_comp (contrEquiv1 dot_S128x256_S1024x256_S128x1024_1_1_0_0_n_n 256 rfl rfl).symm]
  refine Finset.sum_congr rfl fun k _ => ?_
  have hk := contrEquiv1_symm_val dot_S128x256_S1024x256_S128x1024_1_1_0_0_n_n 256 rfl rfl k
  have el : dot_S128x256_S1024x256_S128x1024_1_1_0_0_n_n.lhsIdx (ix2 r q) ((contrEquiv1 dot_S128x256_S1024x256_S128x1024_1_1_0_0_n_n 256 rfl rfl).symm k) = ix2 r k :=
    funext fun a => Fin.ext (by
      match a with
      | ⟨0, _⟩ => exact lhs_axis0 _ _
      | ⟨1, _⟩ => exact (lhs_axis1 _ _).trans hk)
  have er : dot_S128x256_S1024x256_S128x1024_1_1_0_0_n_n.rhsIdx (ix2 r q) ((contrEquiv1 dot_S128x256_S1024x256_S128x1024_1_1_0_0_n_n 256 rfl rfl).symm k) = ix2 q k :=
    funext fun a => Fin.ext (by
      match a with
      | ⟨0, _⟩ => exact rhs_axis0 _ _
      | ⟨1, _⟩ => exact (rhs_axis1 _ _).trans hk)
  rw [el, er]

/-! ## The counters -/

theorem rowctr_apply (r : Fin 128) (q : Fin 1024) : iota .tc S128x1024 32 [0] Facts₀.iota_S128x1024_d0_w32 (ix2 r q) = BitVec.ofNat 32 r.val :=
  iota_single_apply .tc S128x1024 32 0 Facts₀.iota_S128x1024_d0_w32 (ix2 r q)
theorem colctr_apply (r : Fin 128) (q : Fin 1024) : iota .tc S128x1024 32 [1] Facts₀.iota_S128x1024_d1_w32 (ix2 r q) = BitVec.ofNat 32 q.val :=
  iota_single_apply .tc S128x1024 32 1 Facts₀.iota_S128x1024_d1_w32 (ix2 r q)

end Cert.KernelIdeal.Point

end
-- ==== Proof.RefPoint.lean ====
/-
  The reference's stages read at one entry (I, q) of the [1024, 1024] result.

  The distance stage is the host sum, from the literal 0, over k of (y_pred[q,k] − y_pred[I,k])²: the first broadcast puts
  row q of y_pred at (I, q, ·), the second puts row I there. The pointwise tail turns a distance d and a target t into
  (√(d + mask·ε)·(1 − mask) − t)²  with  mask = 1 if d = 0 else 0. The cut chooses 0 where the word I − 1 is at least the word q.
-/
import proofs.«169944_j33036888441194_1_alg».proof.Proof.RefStages
import Idealize.ShloMosaic.Lib.ValueIdx

noncomputable section

namespace Cert.ReferenceIdeal.Point

open Idealize.ShloMosaic Idealize.ShloMosaic.ValueIdx Cert.ReferenceIdeal Cert.ReferenceIdeal.Stages

/-- The pointwise tail on extended reals: from a distance and a target. -/
def tailS (d t : EReal) : EReal :=
  (Ideal.sqrt (d + FloatOps.uitofp (F := Ideal) .f32 (Ideal.cmp .oeq d (Ideal.ofBits .f32 0x00000000#32)) * Ideal.ofBits .f32 0x33D6BF95#32)
      * (Ideal.ofBits .f32 0x3F800000#32 - FloatOps.uitofp (F := Ideal) .f32 (Ideal.cmp .oeq d (Ideal.ofBits .f32 0x00000000#32))) - t)
    * (Ideal.sqrt (d + FloatOps.uitofp (F := Ideal) .f32 (Ideal.cmp .oeq d (Ideal.ofBits .f32 0x00000000#32)) * Ideal.ofBits .f32 0x33D6BF95#32)
      * (Ideal.ofBits .f32 0x3F800000#32 - FloatOps.uitofp (F := Ideal) .f32 (Ideal.cmp .oeq d (Ideal.ofBits .f32 0x00000000#32))) - t)

/-- The distance stage at (I, q). -/
theorem dist_apply (P : (⟨S1024x256, .f32⟩ : BufTy).Contents (Elt Ideal)) (I q : Fin 1024) :
    val_main_v6 (F := Ideal) P (ix2 I q)
      = Ideal.ofBits .f32 0x00000000#32 + ∑ k : Fin 256, (P (ix2 q k) - P (ix2 I k)) * (P (ix2 q k) - P (ix2 I k)) := by
  rw [val_main_v6_apply]
  refine congrArg (_ + ·) (Finset.sum_congr rfl fun k _ => ?_)
  rw [val_main_v5_apply, val_main_v4_apply, val_main_v2_apply, val_main_v3_apply, val_main_v0_apply, val_main_v1_apply]
  have e0 : idx_main_v0 (idx_main_v2 (idx_main_v6 (ix2 I q) k)) = ix2 q k :=
    funext fun a => Fin.ext (by match a with | ⟨0, _⟩ => rfl | ⟨1, _⟩ => rfl)
  have e1 : idx_main_v1 (idx_main_v3 (idx_main_v6 (ix2 I q) k)) = ix2 I k :=
    funext fun a => Fin.ext (by match a with | ⟨0, _⟩ => rfl | ⟨1, _⟩ => rfl)
  rw [e0, e1]
  rfl

/-- The tail stage at an entry is the pointwise tail of the distance stage and the target there. -/
theorem tail_apply (T : (⟨S1024x1024, .f32⟩ : BufTy).Contents (Elt Ideal)) (P : (⟨S1024x256, .f32⟩ : BufTy).Contents (Elt Ideal)) (i : S1024x1024.Idx) :
    val_main_v18 (F := Ideal) T P i = tailS (val_main_v6 (F := Ideal) P i) (T i) := by
  rw [val_main_v18_apply, val_main_v17_apply, val_main_v16_apply, val_main_v13_apply, val_main_v15_apply, val_main_v12_apply,
    val_main_v14_apply, val_main_v11_apply, val_main_v9_apply, val_main_v10_apply, val_main_v8_apply, val_main_v7_apply,
    val_main_cst_2_apply, val_main_cst_1_apply, val_main_cst_0_apply]
  rfl

/-- The cut at (I, q): 0 where the word I − 1 is at least the word q, the tail stage elsewhere. -/
theorem cut_apply (T : (⟨S1024x1024, .f32⟩ : BufTy).Contents (Elt Ideal)) (P : (⟨S1024x256, .f32⟩ : BufTy).Contents (Elt Ideal)) (I q : Fin 1024) :
    val_main_v19 (F := Ideal) T P (ix2 I q)
      = Scalar.select (IntOp.cmpi .sge (IntOp.addi (BitVec.ofNat 32 I.val) 4294967295#32) (BitVec.ofNat 32 q.val))
          (Ideal.ofBits .f32 0x00000000#32) (val_main_v18 (F := Ideal) T P (ix2 I q)) := by
  rw [val_main_v19_apply, val_main_call0_v4_apply, val_main_call0_v2_apply, val_main_call0_v0_apply, val_main_call0_v1_apply,
    val_main_call0_c_apply, val_main_call0_v3_apply, val_main_call0_v5_apply, val_main_call0_cst_apply]
  rfl

end Cert.ReferenceIdeal.Point

end
-- ==== Proof.PairLaw.lean ====
/-
  The facts about numbers and words that join the kernel's arithmetic to the reference's.

  For real vectors a, b:   Σ a² + Σ b² − 2·Σ a·b = Σ (b − a)²  — the expansion of the square, summed. It is used on the
  extended reals only through the coercion of reals (finite inputs), where sums, products and differences are the reals'.
  The sum of squares is non-negative, so clamping it at 0 changes nothing, and it vanishes when a = b, so forcing the diagonal
  to 0 changes nothing either.
  A one-bit mask widened to 32 bits and read as a signed integer is the bit read unsigned: 0 or 1.
  Row 128·t + r and column q, as 32-bit words: the kernel keeps an entry when  q ≥ row  (signed, both small), the reference cuts it
  when  row − 1 ≥ q,  that is  q < row  (at row 0 the word row − 1 is −1, below every column); they are equal words iff equal numbers.
-/
import Idealize.ShloMosaic.PureOps.Ideal
import Idealize.ShloMosaic.PureOps.Ideal.Laws
import Idealize.ShloMosaic.Lib.StableHlo.Predicate
import Mathlib.Tactic.Ring

noncomputable section

namespace Cert.PairLaw

open Idealize.ShloMosaic Idealize.ShloMosaic.StableHlo.Predicate

/-! ## Numbers -/

/-- The literal 2.0 denotes the real 2. -/
theorem ofBits_two : Ideal.ofBits .f32 0x40000000#32 = ((2 : ℝ) : EReal) := by
  simp [Ideal.ofBits, Ideal.ieee, -EReal.coe_mul]; norm_num

/-- The coercion of a finite sum of reals is the sum of the coercions. -/
theorem coe_sum_on {ι : Type} [DecidableEq ι] (s : Finset ι) (f : ι → ℝ) : ((∑ k ∈ s, f k : ℝ) : EReal) = ∑ k ∈ s, (f k : EReal) := by
  induction s using Finset.induction_on with
  | empty => simp
  | insert a s ha ih => rw [Finset.sum_insert ha, Finset.sum_insert ha, EReal.coe_add, ih]

theorem coe_sum {n : ℕ} (f : Fin n → ℝ) : ((∑ k, f k : ℝ) : EReal) = ∑ k, (f k : EReal) := coe_sum_on Finset.univ f

/-- The expansion of the square, summed. -/
theorem real_law {n : ℕ} (a b : Fin n → ℝ) :
    (∑ k, a k * a k) + (∑ k, b k * b k) - 2 * ∑ k, a k * b k = ∑ k, (b k - a k) * (b k - a k) := by
  rw [Finset.mul_sum, ← Finset.sum_add_distrib, ← Finset.sum_sub_distrib]
  exact Finset.sum_congr rfl fun k _ => by ring

/-- The squared distance of two real vectors. -/
def sqdist {n : ℕ} (a b : Fin n → ℝ) : ℝ := ∑ k, (b k - a k) * (b k - a k)

theorem sqdist_nonneg {n : ℕ} (a b : Fin n → ℝ) : 0 ≤ sqdist a b := Finset.sum_nonneg fun k _ => mul_self_nonneg _

theorem sqdist_self {n : ℕ} (a : Fin n → ℝ) : sqdist a a = 0 := by simp [sqdist]

/-- The kernel's side, on coerced reals: the two norms (the second with the host sum's initial 0) less twice the product. -/
theorem kernel_side {n : ℕ} (a b : Fin n → ℝ) :
    ((∑ k, (a k : EReal) * (a k : EReal)) + ((0 : EReal) + ∑ k, (b k : EReal) * (b k : EReal))) - ((2 : ℝ) : EReal) * ∑ k, (a k : EReal) * (b k : EReal)
      = ((sqdist a b : ℝ) : EReal) := by
  simp only [zero_add, ← EReal.coe_mul, ← coe_sum, ← EReal.coe_add, ← EReal.coe_sub]
  exact congrArg _ (real_law a b)

/-- The reference's side, on coerced reals: the host sum of the squared differences from 0. -/
theorem reference_side {n : ℕ} (a b : Fin n → ℝ) :
    (0 : EReal) + ∑ k, ((b k : EReal) - (a k : EReal)) * ((b k : EReal) - (a k : EReal)) = ((sqdist a b : ℝ) : EReal) := by
  simp only [zero_add, ← EReal.coe_sub, ← EReal.coe_mul, ← coe_sum]
  rfl

/-- Clamping a squared distance at 0 changes nothing. -/
theorem max_sqdist {n : ℕ} (a b : Fin n → ℝ) : max ((sqdist a b : ℝ) : EReal) 0 = ((sqdist a b : ℝ) : EReal) :=
  max_eq_left (EReal.coe_nonneg.mpr (sqdist_nonneg a b))

/-! ## The mask -/

/-- A bit widened to 32 bits, read signed, is the bit read unsigned. -/
theorem mask_eq (b : BitVec 1) : FloatOps.sitofp (F := Ideal) .f32 (b.setWidth 32) = FloatOps.uitofp (F := Ideal) .f32 b := by
  show (((b.setWidth 32).toInt : ℝ) : EReal) = ((b.toNat : ℝ) : EReal)
  have h : (b.setWidth 32).toInt = (b.toNat : ℤ) := by
    rcases BitVec.eq_zero_or_eq_one b with rfl | rfl <;> decide
  rw [h]; simp

/-! ## Words -/

/-- The row word: the point's number times 128, plus the row inside the block. -/
theorem rowword_eq (t r : ℕ) (ht : t < 8) (hr : r < 128) :
    IntOp.addi (IntOp.muli (BitVec.ofNat 32 t) 128#32) (BitVec.ofNat 32 r) = BitVec.ofNat 32 (t * 128 + r) := by
  apply BitVec.eq_of_toNat_eq
  simp only [IntOp.addi, IntOp.muli, BitVec.toNat_add, BitVec.toNat_mul, BitVec.toNat_ofNat]
  omega

theorem toNat_small (n : ℕ) (hn : n < 1024) : (BitVec.ofNat 32 n).toNat = n := by
  simp only [BitVec.toNat_ofNat]; omega

/-- The kernel keeps an entry exactly on and above the diagonal. -/
theorem keep_iff (I q : ℕ) (hI : I < 1024) (hq : q < 1024) :
    IntOp.cmpi .sge (BitVec.ofNat 32 q) (BitVec.ofNat 32 I) = 1#1 ↔ I ≤ q := by
  rw [sge_iff_toNat (by rw [toNat_small q hq]; omega) (by rw [toNat_small I hI]; omega), toNat_small q hq, toNat_small I hI]

/-- The word with every bit set is −1. -/
theorem allOnes_eq : (4294967295#32 : BitVec 32) = -1#32 := by decide

/-- The word before a positive row is the row less one: adding −1 is subtracting 1. -/
theorem pred_word (I : ℕ) (hpos : 0 < I) (hI : I < 1024) :
    IntOp.addi (BitVec.ofNat 32 I) 4294967295#32 = BitVec.ofNat 32 (I - 1) := by
  unfold IntOp.addi
  rw [allOnes_eq, ← BitVec.sub_eq_add_neg]
  exact sub_one_ofNat I hpos (by omega)

/-- The word before row 0 has every bit set: as a signed number it is −1. -/
theorem pred_zero_toInt : (IntOp.addi (BitVec.ofNat 32 0) 4294967295#32).toInt = -1 := by
  have hn : (IntOp.addi (BitVec.ofNat 32 0) 4294967295#32).toNat = 4294967295 := by
    simp only [IntOp.addi, BitVec.toNat_add, BitVec.toNat_ofNat]
  have hm : (IntOp.addi (BitVec.ofNat 32 0) 4294967295#32).msb = true := by
    rw [BitVec.msb_eq_decide, hn]
    simp
  rw [BitVec.toInt_eq_msb_cond, hm, hn]
  norm_num

/-- At row 0 nothing is cut: −1 is below every column. -/
theorem cut_zero (q : ℕ) (hq : q < 1024) :
    ¬ IntOp.cmpi .sge (IntOp.addi (BitVec.ofNat 32 0) 4294967295#32) (BitVec.ofNat 32 q) = 1#1 := by
  intro h
  have hq' : (BitVec.ofNat 32 q).toInt = q := toInt_ofNat_small q (by omega)
  have hs : (BitVec.ofNat 32 q).sle (IntOp.addi (BitVec.ofNat 32 0) 4294967295#32) = true := (ofBool_eq_one_iff _).mp h
  rw [BitVec.sle, decide_eq_true_eq, hq', pred_zero_toInt] at hs
  omega

/-- The reference cuts an entry exactly below the diagonal. -/
theorem cut_iff (I q : ℕ) (hI : I < 1024) (hq : q < 1024) :
    IntOp.cmpi .sge (IntOp.addi (BitVec.ofNat 32 I) 4294967295#32) (BitVec.ofNat 32 q) = 1#1 ↔ q < I := by
  rcases Nat.eq_zero_or_pos I with rfl | hpos
  · exact ⟨fun h => absurd h (cut_zero q hq), fun h => absurd h (Nat.not_lt_zero q)⟩
  · rw [pred_word I hpos hI, sge_iff_toNat (by rw [toNat_small (I - 1) (by omega)]; omega) (by rw [toNat_small q hq]; omega),
      toNat_small (I - 1) (by omega), toNat_small q hq]
    omega

/-- Row and column are the same word exactly on the diagonal. -/
theorem diag_iff (I q : ℕ) (hI : I < 1024) (hq : q < 1024) :
    IntOp.cmpi .eq (BitVec.ofNat 32 I) (BitVec.ofNat 32 q) = 1#1 ↔ I = q := by
  rw [cmpi_eq_iff]
  constructor
  · intro h
    have := congrArg BitVec.toNat h
    rwa [toNat_small I hI, toNat_small q hq] at this
  · intro h; rw [h]

/-- A one-bit word that is not 1 is 0. -/
theorem bit_cases (b : BitVec 1) : b = 1#1 ∨ b = 0#1 := (BitVec.eq_zero_or_eq_one b).symm

end Cert.PairLaw

end
-- ==== Proof.KernelValue.lean ====
/-
  The kernel's result array is the reference's last stage.

  At grid point t the body stores, at entry (r, q) of its [128, 1024] block, a pointwise function of
      Σ_k a[r,k]² + nb[q] − 2·Σ_k a[r,k]·b[q,k]      (forced to 0 where the global row 128·t + r is the column q, then clamped at 0)
  and of y_true's entry, where a is rows 128·t … of y_pred, b is all of y_pred, and nb[q] = 0 + Σ_k y_pred[q,k]² was computed on the
  host. With I = 128·t + r, for real y_pred the first expression is Σ_k (y_pred[q,k] − y_pred[I,k])², the reference's distance:
  the expansion of the square; it is ≥ 0, so the clamp is the identity, and it is 0 when I = q, so forcing the diagonal is the
  identity. The rest — the mask, the square root, the difference from y_true, the square — is the same function on both sides
  (the kernel's mask is the one-bit comparison widened and read signed, the reference's the bit read unsigned: 0 or 1 either way),
  and the kernel keeps an entry when q ≥ I exactly where the reference does not cut it (I − 1 ≥ q). So point t writes block t of
  the reference's last stage, the 8 blocks cover the 1024 rows, and the array ends at that stage.
-/
import proofs.«169944_j33036888441194_1_alg».proof.Proof.KernelIdealRegion
import proofs.«169944_j33036888441194_1_alg».proof.Proof.KernelPoint
import proofs.«169944_j33036888441194_1_alg».proof.Proof.RefPoint
import proofs.«169944_j33036888441194_1_alg».proof.Proof.PairLaw
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws

set_option maxRecDepth 16384

noncomputable section

namespace Cert.KernelIdeal.PairValue

open Idealize.ShloMosaic Idealize.ShloMosaic.TcCoe Idealize.ShloMosaic.ValueIdx Idealize.SL.Sem Idealize.ShloMosaic.StableHlo
open Cert.KernelIdeal Cert.KernelIdeal.Gen Cert.KernelIdeal.Region Cert.KernelIdeal.Point Cert.PairLaw
open Idealize.ShloMosaic.Pipeline (Dat)

/-! ## The body's store at one entry -/

/-- The kernel's pointwise tail on extended reals: from a distance and a target (the mask a widened bit read signed). -/
def tailK (d t : EReal) : EReal :=
  (Ideal.sqrt (d + FloatOps.sitofp (F := Ideal) .f32 ((Ideal.cmp .oeq d (Ideal.ofBits .f32 0x00000000#32)).setWidth 32) * Ideal.ofBits .f32 0x33D6BF95#32)
      * (Ideal.ofBits .f32 0x3F800000#32 - FloatOps.sitofp (F := Ideal) .f32 ((Ideal.cmp .oeq d (Ideal.ofBits .f32 0x00000000#32)).setWidth 32)) - t)
    * (Ideal.sqrt (d + FloatOps.sitofp (F := Ideal) .f32 ((Ideal.cmp .oeq d (Ideal.ofBits .f32 0x00000000#32)).setWidth 32) * Ideal.ofBits .f32 0x33D6BF95#32)
      * (Ideal.ofBits .f32 0x3F800000#32 - FloatOps.sitofp (F := Ideal) .f32 ((Ideal.cmp .oeq d (Ideal.ofBits .f32 0x00000000#32)).setWidth 32)) - t)

/-- What the body stores at entry (r, q), from its four loaded blocks and the point's coordinate. -/
theorem pay_apply (i : grid0.Coords) (x0 : FVec Ideal S128x256 .f32) (x1 : FVec Ideal S1024x256 .f32) (x2 : FVec Ideal S1x1024 .f32)
    (x3 : FVec Ideal S128x1024 .f32) (r : Fin 128) (q : Fin 1024) :
    k0_pay1 (F := Ideal) i x0 x1 x2 x3 (ix2 r q)
      = Scalar.select (IntOp.cmpi .sge (BitVec.ofNat 32 q.val) (IntOp.addi (IntOp.muli (BitVec.ofNat 32 (i 0).val) 128#32) (BitVec.ofNat 32 r.val)))
          (tailK (max (Scalar.select (IntOp.cmpi .eq (IntOp.addi (IntOp.muli (BitVec.ofNat 32 (i 0).val) 128#32) (BitVec.ofNat 32 r.val)) (BitVec.ofNat 32 q.val))
                    (Ideal.ofBits .f32 0x00000000#32)
                    (((∑ k : Fin 256, x0 (ix2 r k) * x0 (ix2 r k)) + x2 (ix2 (0 : Fin 1) q))
                      - Ideal.ofBits .f32 0x40000000#32 * ∑ k : Fin 256, x0 (ix2 r k) * x1 (ix2 q k)))
                  (Ideal.ofBits .f32 0x00000000#32))
            (x3 (ix2 r q)))
          (Ideal.ofBits .f32 0x00000000#32) := by
  rw [← rowsq_apply x0 r q, ← normrow_apply x2 r q, ← gram_apply x0 x1 r q, ← rowctr_apply r q, ← colctr_apply r q]
  rfl

/-! ## Where each window's block sits -/

theorem hz : (![0, 0] : Fin 2 → Nat) = fun _ => 0 := funext fun a => by fin_cases a <;> rfl

/-- The printed index maps, decided over the 8 points: windows 0, 3 and 4 are at block row t, windows 1 and 2 at block 0. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-- The one grid coordinate of point t is t. -/
theorem coord_facts : ∀ t : Fin cfg0.N, ((grid0.coords t) 0).val = t.val :=
  (by decide +kernel : ∀ t : Fin grid0.N, _)

theorem N_eq : cfg0.N = 8 := N_0

variable (m : (ℓ : Loc nD τ sig) → Buf (Elt Ideal) ℓ)

/-- Window 0's block at point t is rows 128·t … of y_pred. -/
theorem blk0_apply (c : Dev nD) (t : Fin cfg0.N) (r : Fin 128) (k : Fin 256) (I : Fin 1024) (hI : I.val = t.val * 128 + r.val) :
    iblk m c 0 t (ix2 r k) = V m c main_arg1 (ix2 I k) := by
  obtain ⟨e0, e1, -⟩ := idx_facts t
  show V m c main_arg1 (((cfg0.win 0).blk t).view.emb (ix2 r k)) = _
  refine congrArg _ (funext fun a => Fin.ext ?_)
  match a with
  | ⟨0, _⟩ => show win0_0.index t (0 : Fin 2) * 128 + 1 * r.val = I.val; omega
  | ⟨1, _⟩ => show win0_0.index t (1 : Fin 2) * 256 + 1 * k.val = k.val; omega

/-- Window 1's block is all of y_pred, at every point. -/
theorem blk1_apply (c : Dev nD) (t : Fin cfg0.N) (q : Fin 1024) (k : Fin 256) :
    iblk m c 1 t (ix2 q k) = V m c main_arg1 (ix2 q k) := by
  obtain ⟨-, -, e0, e1, -⟩ := idx_facts t
  show V m c main_arg1 (((cfg0.win 1).blk t).view.emb (ix2 q k)) = _
  refine congrArg _ (funext fun a => Fin.ext ?_)
  match a with
  | ⟨0, _⟩ => show win0_1.index t (0 : Fin 2) * 1024 + 1 * q.val = q.val; omega
  | ⟨1, _⟩ => show win0_1.index t (1 : Fin 2) * 256 + 1 * k.val = k.val; omega

/-- Window 2's block is the whole row of norms, at every point. -/
theorem blk2_apply (c : Dev nD) (t : Fin cfg0.N) (q : Fin 1024) :
    iblk m c 2 t (ix2 (0 : Fin 1) q) = V m c main_v2 (ix2 (0 : Fin 1) q) := by
  obtain ⟨-, -, -, -, e0, e1, -⟩ := idx_facts t
  show V m c main_v2 (((cfg0.win 2).blk t).view.emb (ix2 (0 : Fin 1) q)) = _
  refine congrArg _ (funext fun a => Fin.ext ?_)
  match a with
  | ⟨0, _⟩ => show win0_2.index t (0 : Fin 2) * 1 + 1 * 0 = 0; omega
  | ⟨1, _⟩ => show win0_2.index t (1 : Fin 2) * 1024 + 1 * q.val = q.val; omega

/-- Window 3's block at point t is rows 128·t … of y_true. -/
theorem blk3_apply (c : Dev nD) (t : Fin cfg0.N) (r : Fin 128) (q : Fin 1024) (I : Fin 1024) (hI : I.val = t.val * 128 + r.val) :
    iblk m c 3 t (ix2 r q) = V m c main_arg0 (ix2 I q) := by
  obtain ⟨-, -, -, -, -, -, e0, e1, -⟩ := idx_facts t
  show V m c main_arg0 (((cfg0.win 3).blk t).view.emb (ix2 r q)) = _
  refine congrArg _ (funext fun a => Fin.ext ?_)
  match a with
  | ⟨0, _⟩ => show win0_3.index t (0 : Fin 2) * 128 + 1 * r.val = I.val; omega
  | ⟨1, _⟩ => show win0_3.index t (1 : Fin 2) * 1024 + 1 * q.val = q.val; omega

/-! ## The argument arrays, at their literal types -/

/-- y_pred on core c, as launched. -/
abbrev ypred (c : Dev nD) : FVec Ideal S1024x256 .f32 := m ((c.tc : Thread nD τ).loc main_arg1)
/-- y_true on core c, as launched. -/
abbrev ytrue (c : Dev nD) : FVec Ideal S1024x1024 .f32 := m ((c.tc : Thread nD τ).loc main_arg0)

theorem V_ypred (c : Dev nD) : (V m c main_arg1 : S1024x256.Idx → EReal) = ypred m c := V_main_arg1 m c
theorem V_ytrue (c : Dev nD) : (V m c main_arg0 : S1024x1024.Idx → EReal) = ytrue m c := V_main_arg0 m c

/-! ## The norms the host computed -/

/-- The row of norms as the region finds it: entry q is the host sum, from the literal 0, of the squares of row q of y_pred. -/
theorem norms_apply (c : Dev nD) (q : Fin 1024) :
    V m c main_v2 (ix2 (0 : Fin 1) q)
      = Ideal.ofBits .f32 0x00000000#32 + ∑ k : Fin 256, ypred m c (ix2 q k) * ypred m c (ix2 q k) := by
  have e : (V m c main_v2 : S1x1024.Idx → EReal)
      = shapeCast S1x1024 (Host.reduceAdd (F := Ideal) (mulf (ypred m c) (ypred m c)) (constant (F := Ideal) S_ .f32 0x00000000#32)
          Facts₀.reducesTo_S1024x256_S1024_d1 Facts₀.h_S_) Facts₀.shapeCasts_S1024_S1x1024 := by
    dsimp only [V, hostOps0]
    after_results
    rfl
  rw [e]
  refine (shapeCast_a_1a_apply _ Facts₀.shapeCasts_S1024_S1x1024 (0 : Fin 1) q).trans ?_
  simp only [Host.reduceAdd, Ideal.hostReduceAdd_def]
  rw [Ideal.hostReduceAdd_single Facts₀.reducesTo_S1024x256_S1024_d1 (by decide)]
  refine congrArg (_ + ·) (Finset.sum_congr rfl fun k _ => ?_)
  have ek : (by decide : S1024x256.Reduces [1] S1024).lift (ix1 q) k = ix2 q k :=
    funext fun a => Fin.ext (by match a with | ⟨0, _⟩ => rfl | ⟨1, _⟩ => rfl)
  rw [ek]
  rfl

/-! ## One entry: the kernel's store is the reference's stage -/

/-- The two tails are one function: the kernel's mask and the reference's are the same number. -/
theorem tailK_eq (d t : EReal) : tailK d t = Cert.ReferenceIdeal.Point.tailS d t := by
  unfold tailK Cert.ReferenceIdeal.Point.tailS
  rw [mask_eq]

/-- At entry (I, q), with I = 128·t + r and y_pred the real matrix p: the body's store is the reference's cut stage. -/
theorem entry_eq (p : Fin 1024 → Fin 256 → ℝ) (T : EReal) (tv : ℕ) (htv : tv < 8) (r : Fin 128) (q I : Fin 1024) (hI : I.val = tv * 128 + r.val) :
    Scalar.select (IntOp.cmpi .sge (BitVec.ofNat 32 q.val) (IntOp.addi (IntOp.muli (BitVec.ofNat 32 tv) 128#32) (BitVec.ofNat 32 r.val)))
        (tailK (max (Scalar.select (IntOp.cmpi .eq (IntOp.addi (IntOp.muli (BitVec.ofNat 32 tv) 128#32) (BitVec.ofNat 32 r.val)) (BitVec.ofNat 32 q.val))
                  (Ideal.ofBits .f32 0x00000000#32)
                  (((∑ k : Fin 256, ((p I k : ℝ) : EReal) * ((p I k : ℝ) : EReal))
                      + (Ideal.ofBits .f32 0x00000000#32 + ∑ k : Fin 256, ((p q k : ℝ) : EReal) * ((p q k : ℝ) : EReal)))
                    - Ideal.ofBits .f32 0x40000000#32 * ∑ k : Fin 256, ((p I k : ℝ) : EReal) * ((p q k : ℝ) : EReal)))
                (Ideal.ofBits .f32 0x00000000#32)) T)
        (Ideal.ofBits .f32 0x00000000#32)
      = Scalar.select (IntOp.cmpi .sge (IntOp.addi (BitVec.ofNat 32 I.val) 4294967295#32) (BitVec.ofNat 32 q.val))
          (Ideal.ofBits .f32 0x00000000#32)
          (Cert.ReferenceIdeal.Point.tailS
            (Ideal.ofBits .f32 0x00000000#32
              + ∑ k : Fin 256, (((p q k : ℝ) : EReal) - ((p I k : ℝ) : EReal)) * (((p q k : ℝ) : EReal) - ((p I k : ℝ) : EReal))) T) := by
  rw [rowword_eq tv r.val htv r.isLt, ← hI, Ideal.ofBits_zero_f32, ofBits_two, kernel_side (p I) (p q), reference_side (p I) (p q), tailK_eq]
  have hdiag : Scalar.select (IntOp.cmpi .eq (BitVec.ofNat 32 I.val) (BitVec.ofNat 32 q.val)) (0 : EReal) ((sqdist (p I) (p q) : ℝ) : EReal)
      = ((sqdist (p I) (p q) : ℝ) : EReal) := by
    unfold Scalar.select
    split
    · rename_i h
      have hIq : I = q := Fin.ext ((diag_iff I.val q.val I.isLt q.isLt).mp h)
      subst hIq
      rw [sqdist_self]
      rfl
    · rfl
  rw [hdiag, max_sqdist]
  have hkeep : IntOp.cmpi .sge (BitVec.ofNat 32 q.val) (BitVec.ofNat 32 I.val) = (1 : BitVec 1) ↔ I.val ≤ q.val :=
    keep_iff I.val q.val I.isLt q.isLt
  have hcut : IntOp.cmpi .sge (IntOp.addi (BitVec.ofNat 32 I.val) 4294967295#32) (BitVec.ofNat 32 q.val) = (1 : BitVec 1) ↔ q.val < I.val :=
    cut_iff I.val q.val I.isLt q.isLt
  unfold Scalar.select
  by_cases h : I.val ≤ q.val
  · rw [if_pos (hkeep.mpr h), if_neg (fun hc => absurd (hcut.mp hc) (by omega))]
  · rw [if_neg (fun hc => h (hkeep.mp hc)), if_pos (hcut.mpr (by omega))]

/-! ## What a point writes back, and the array after the run -/

/-- The part of a [128, 1024] block that the write-back moves is the whole block: its blocks tile the array. -/
theorem cut_blk4 (t : Fin cfg0.N) (X : S128x1024.Idx → EReal) (r : Fin 128) (q : Fin 1024) :
    (win0 4).cut (grid0.coords t) X (ix2 r q) = X (ix2 r q) :=
  congrArg X (funext fun a => Fin.ext rfl)

/-- Block t of an array, read at a block index, is the array at the index under it. -/
theorem read_blk4 (t : Fin cfg0.N) (G : S1024x1024.Idx → EReal) (j : S128x1024.Idx) :
    View.read (Elt Ideal) ((View.whole main_v3).slice ((win0 4).rect t)) G j = G (((cfg0.win 4).blk t).view.emb j) := rfl

/-- Point t writes back block t of the reference's last stage of the argument arrays. -/
theorem flushed4_eq (p : Fin 1024 → Fin 256 → ℝ) (c : Dev nD) (hp : ∀ a k, ypred m c (ix2 a k) = ((p a k : ℝ) : EReal)) (t : Fin cfg0.N) :
    (dats m 0 c).flushed 4 t = ((cfg0.win 4).blk t).view.read (Elt Ideal) (Cert.ReferenceIdeal.Stages.val_main_v19 (F := Ideal) (ytrue m c) (ypred m c)) := by
  show (cfg0.win 4).cut (grid0.coords t) ((dats m 0 c).after 4 t) = _
  rw [after4]
  unfold out4
  rw [View.canon_unit_zero hz]
  simp only [View.ld_unit_zero (S := S128x256) hz, View.ld_unit_zero (S := S1024x256) hz, View.ld_unit_zero (S := S1x1024) hz,
    View.ld_unit_zero (S := S128x1024) hz]
  funext j
  obtain ⟨r, q, rfl⟩ : ∃ (r : Fin 128) (q : Fin 1024), j = ix2 r q := ⟨j 0, j 1, eq_ix2 j⟩
  have ht8 : t.val < 8 := lt_of_lt_of_eq t.isLt N_eq
  obtain ⟨I, hI⟩ : ∃ I : Fin 1024, I.val = t.val * 128 + r.val := ⟨⟨t.val * 128 + r.val, by have := r.isLt; omega⟩, rfl⟩
  have hemb : ((cfg0.win 4).blk t).view.emb (ix2 r q) = ix2 I q := by
    obtain ⟨-, -, -, -, -, -, -, -, e0, e1⟩ := idx_facts t
    refine funext fun a => Fin.ext ?_
    match a with
    | ⟨0, _⟩ => show win0_4.index t (0 : Fin 2) * 128 + 1 * r.val = I.val; omega
    | ⟨1, _⟩ => show win0_4.index t (1 : Fin 2) * 1024 + 1 * q.val = q.val; omega
  refine (cut_blk4 t _ r q).trans ?_
  refine Eq.trans ?_ (read_blk4 t _ (ix2 r q)).symm
  rw [hemb, pay_apply, coord_facts t, Cert.ReferenceIdeal.Point.cut_apply, Cert.ReferenceIdeal.Point.tail_apply,
    Cert.ReferenceIdeal.Point.dist_apply]
  have hP : ∀ (a : Fin 1024) (k : Fin 256), V m c main_arg1 (ix2 a k) = ((p a k : ℝ) : EReal) :=
    fun a k => (congrFun (V_main_arg1 m c) (ix2 a k)).trans (hp a k)
  have hT : V m c main_arg0 (ix2 I q) = ytrue m c (ix2 I q) := congrFun (V_main_arg0 m c) (ix2 I q)
  have hN : V m c main_v2 (ix2 (0 : Fin 1) q)
      = Ideal.ofBits .f32 0x00000000#32 + ∑ k : Fin 256, ((p q k : ℝ) : EReal) * ((p q k : ℝ) : EReal) := by
    rw [norms_apply]
    simp only [hp]
  simp only [blk0_apply m c t r _ I hI, blk1_apply m c t, blk2_apply m c t, blk3_apply m c t r q I hI]
  simp only [hP, hT, hN, hp]
  exact entry_eq p (ytrue m c (ix2 I q)) t.val ht8 r q I hI

/-- An index of the result array is in point t's block iff each coordinate is in the block's range on its axis. -/
theorem mem_blk4 (t : Fin cfg0.N) (i : S1024x1024.Idx) :
    i ∈ ((cfg0.win 4).blk t).view.set
      ↔ ∀ a : Fin 2, win0_4.index t a * S128x1024.size a ≤ (i a).val ∧ (i a).val < win0_4.index t a * S128x1024.size a + S128x1024.size a := by
  show i ∈ ((View.whole main_v3).slice (win0_4.rect t)).set ↔ _
  rw [View.set_slice_whole, Rect.mem_set_unit]
  exact Iff.rfl

/-- Every row of the result lies in the block of the point numbered row / 128, which writes it back. -/
theorem rows_covered (i : S1024x1024.Idx) : ∃ t : Fin cfg0.N, (cfg0.win 4).flush t = true ∧ i ∈ ((cfg0.win 4).blk t).view.set := by
  have hi0 : (i 0).val < 1024 := (i 0).isLt
  have hi1 : (i 1).val < 1024 := (i 1).isLt
  obtain ⟨t, ht⟩ : ∃ t : Fin cfg0.N, t.val = (i 0).val / 128 := ⟨⟨(i 0).val / 128, by rw [N_eq]; omega⟩, rfl⟩
  obtain ⟨-, -, -, -, -, -, -, -, e0, e1⟩ := idx_facts t
  refine ⟨t, flush0_4 t, ?_⟩
  rw [mem_blk4]
  intro a
  match a with
  | ⟨0, _⟩ => show win0_4.index t (0 : Fin 2) * 128 ≤ (i 0).val ∧ (i 0).val < win0_4.index t (0 : Fin 2) * 128 + 128; omega
  | ⟨1, _⟩ => show win0_4.index t (1 : Fin 2) * 1024 ≤ (i 1).val ∧ (i 1).val < win0_4.index t (1 : Fin 2) * 1024 + 1024; omega

/-- The result array after the run is the reference's last stage of the argument arrays. -/
theorem final (p : Fin 1024 → Fin 256 → ℝ) (c : Dev nD) (hp : ∀ a k, ypred m c (ix2 a k) = ((p a k : ℝ) : EReal)) :
    (dats m 0 c).arrAt 4 cfg0.N = Cert.ReferenceIdeal.Stages.val_main_v19 (F := Ideal) (ytrue m c) (ypred m c) :=
  (dats m 0 c).arrAt_eq_of_cover 4 _ (fun t _ => flushed4_eq m p c hp t) rows_covered

/-! ## The run, read -/

/-- For real y_pred, every weakly fair execution of the kernel's program terminates with the result array at the reference's
    last stage of the argument arrays and the argument arrays unchanged. -/
theorem run (ρ : Dev nD → PrngReg) (hreal : ∀ c : Dev nD, ∃ p : Fin 1024 → Fin 256 → ℝ, ∀ a k, ypred m c (ix2 a k) = ((p a k : ℝ) : EReal)) :
    θ_run defs (onTc (τ := τ) (main (F := Ideal))) ⟨m, fun _ => 0, ρ⟩ (fun r => ∀ c : Dev nD,
      r.2.mem ((c.tc : Thread nD τ).loc main_v3) = Cert.ReferenceIdeal.Stages.val_main_v19 (F := Ideal) (ytrue m c) (ypred m c)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => by
      obtain ⟨p, hp⟩ := hreal c
      exact ⟨(h c).1.trans (final m p c hp), (h c).2⟩)
    (run_value m ρ)

end Cert.KernelIdeal.PairValue

end
-- ==== Proof.PairFinite.lean ====
/-
  Finite inputs are real.

  The precondition says, of each argument array, that every entry's absolute value is below +∞ (an `and` over all entries of the
  comparison with the literal 0x7F800000, which denotes +∞). On the extended reals |x| = max x (−x); if that is below +∞ then x is
  neither +∞ nor −∞, so it is a real number. Read for y_pred: there is a real matrix p with y_pred[a,k] = p a k.
-/
import proofs.«169944_j33036888441194_1_alg».proof.Pre_finite_inputs
import Idealize.ShloMosaic.PureOps.Ideal
import Idealize.ShloMosaic.Lib.ReduceAll
import Idealize.ShloMosaic.Lib.ValueIdx
import Idealize.ShloMosaic.Lib.Affine
import Idealize.ShloMosaic.Lib.StableHlo.Predicate

noncomputable section

namespace Cert.PairFinite

open Idealize.ShloMosaic Idealize.ShloMosaic.ValueIdx Cert.Pre_finite_inputs

/-- The literal 0x7F800000 denotes +∞. -/
theorem ofBits_inf : Ideal.ofBits .f32 0x7F800000#32 = (⊤ : EReal) := by
  simp [Ideal.ofBits, Ideal.ieee]

/-- An extended real whose absolute value is below +∞ is a real. -/
theorem real_of_abs_lt_top (x : EReal) (h : max x (-x) < ⊤) : ∃ r : ℝ, x = (r : EReal) := by
  have h1 : x < ⊤ := lt_of_le_of_lt (le_max_left _ _) h
  have h2 : -x < ⊤ := lt_of_le_of_lt (le_max_right _ _) h
  have hb : x ≠ ⊥ := by
    rintro rfl
    simp at h2
  exact ⟨x.toReal, (EReal.coe_toReal h1.ne hb).symm⟩

instance : Subsingleton S_.Idx := ⟨fun a b => funext fun d => d.elim0⟩

/-- Under the precondition every entry of the second argument is a real. -/
theorem entry_real [Facts] (x0 : FVec Ideal S1024x1024 .f32) (x1 : FVec Ideal S1024x256 .f32)
    (h : fn (F := Ideal) x0 x1 = fun _ => 1#1) (i : S1024x256.Idx) : ∃ r : ℝ, x1 i = (r : EReal) := by
  have h0 := congrFun h ix0
  dsimp only [fn] at h0
  have h7 := (IntOp.andi_eq_one.mp h0).2
  have hi := Host.reduce_andi_all _ _ _ _ ix0 h7 i
  have hlt : max (x1 i) (-(x1 i)) < Ideal.ofBits .f32 0x7F800000#32 := by
    have : BitVec.ofBool (decide (max (x1 i) (-(x1 i)) < Ideal.ofBits .f32 0x7F800000#32)) = 1#1 := hi
    exact of_decide_eq_true ((StableHlo.Predicate.ofBool_eq_one_iff _).mp this)
  rw [ofBits_inf] at hlt
  exact real_of_abs_lt_top _ hlt

/-- So the second argument is the coercion of a real matrix. -/
theorem matrix_real [Facts] (x0 : FVec Ideal S1024x1024 .f32) (x1 : FVec Ideal S1024x256 .f32)
    (h : fn (F := Ideal) x0 x1 = fun _ => 1#1) :
    ∃ p : Fin 1024 → Fin 256 → ℝ, ∀ (a : Fin 1024) (k : Fin 256), x1 (ix2 a k) = ((p a k : ℝ) : EReal) := by
  choose p hp using fun (a : Fin 1024) (k : Fin 256) => entry_real x0 x1 h (ix2 a k)
  exact ⟨p, hp⟩

end Cert.PairFinite

end
-- ==== Proof.lean ====
/-
  The pairwise-distance loss: the kernel against its jnp reference, over the extended reals.

  Both programs compute, for y_pred of shape [1024, 256] and y_true of shape [1024, 1024],
      out[i, j] = (dist[i, j] − y_true[i, j])²  for j ≥ i,   0 for j < i,
  where dist[i, j] = √(d + mask·ε)·(1 − mask), mask = 1 if d = 0 else 0, and d is the squared distance of rows i and j of y_pred.
  The reference forms d as Σ_k (y_pred[j,k] − y_pred[i,k])². The kernel, on a grid of 8 blocks of 128 rows, forms it as
  ‖a‖² + ‖b‖² − 2·a·b (the second norm computed on the host), forces it to 0 on the diagonal and clamps it at 0. For finite
  inputs these are the same real number: the expansion of the square; it is non-negative and vanishes on the diagonal.

  The three frames: each kernel program's run is the launch of its one region, whose two input windows on y_pred hold half
  the array each; the reference's run is its 32 host operations read in three stretches. The idealization rewrote nothing, so
  `preserves` has no conjunct. `algebraic`: the kernel's result array ends at the reference's own last stage of the argument
  arrays (block t of it is what grid point t writes back), which is what the reference's run ends at.
-/
import proofs.«169944_j33036888441194_1_alg».proof.Defs
import proofs.«169944_j33036888441194_1_alg».proof.Proof.Gen.Kernel
import proofs.«169944_j33036888441194_1_alg».proof.Proof.Gen.KernelIdeal
import proofs.«169944_j33036888441194_1_alg».proof.Proof.Gen.ReferenceIdeal
import proofs.«169944_j33036888441194_1_alg».proof.Proof.Gen.Pre_finite_inputs
import proofs.«169944_j33036888441194_1_alg».proof.Proof.KernelRegion
import proofs.«169944_j33036888441194_1_alg».proof.Proof.KernelIdealRegion
import proofs.«169944_j33036888441194_1_alg».proof.Proof.RefRun
import proofs.«169944_j33036888441194_1_alg».proof.Proof.KernelValue
import proofs.«169944_j33036888441194_1_alg».proof.Proof.PairFinite
import Idealize.ShloMosaic.Adequacy
import Idealize.ShloMosaic.Init

noncomputable section

namespace Cert.Proof

open Idealize.ShloMosaic Idealize.ShloMosaic.TcCoe Idealize.ShloMosaic.ValueIdx Idealize.SL.Sem

/-- The word-level kernel runs to the end and leaves its arguments unchanged. -/
theorem frame_kernel : Cert.frame_Kernel := fun m ρ _ => Cert.Kernel.Region.frame m ρ

/-- So does the kernel read over the extended reals. -/
theorem frame_kernelIdeal : Cert.frame_KernelIdeal := fun m ρ _ => Cert.KernelIdeal.Region.frame m ρ

/-- The reference's frame is its run with the result dropped. -/
theorem frame_reference : Cert.frame_ReferenceIdeal := fun m ρ _ =>
  (θ_run Cert.ReferenceIdeal.defs _ _).mono (fun _ h c => (h c).2) (Cert.ReferenceIdeal.HostRun.run (F := Ideal) m ρ)

/-- The idealization rewrote no operation. -/
theorem preserves : Cert.preserves_Kernel_KernelIdeal := trivial

/-- From memories agreeing on the arguments both programs end at the reference's last stage of y_true and y_pred:
    the kernel because y_pred is real under the precondition, the reference by its run. -/
theorem algebraic : Cert.algebraic_KernelIdeal_ReferenceIdeal := by
  intro m ρ m' ρ' hpre hagree
  have hreal : ∀ c : Dev Cert.KernelIdeal.nD, ∃ p : Fin 1024 → Fin 256 → ℝ,
      ∀ a k, Cert.KernelIdeal.PairValue.ypred m c (ix2 a k) = ((p a k : ℝ) : EReal) :=
    fun c => Cert.PairFinite.matrix_real _ _ (hpre c)
  refine ⟨_, Cert.KernelIdeal.PairValue.run m ρ hreal, ?_⟩
  refine (θ_run Cert.ReferenceIdeal.defs _ _).mono (fun _ h c => ⟨(h c).1.trans ?_, (h c).2⟩)
    (Cert.ReferenceIdeal.HostRun.run (F := Ideal) m' ρ')
  rw [(hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
